-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 1 := constantI S_ 1 1#1
  let main_v6 : IVec S_ 1 := (fun x v => Host.reduce IntOp.andi x v reducesTo_S131072_S_d0 h_S_) main_v5 main_c_1
  let main_v7 : IVec S_ 1 := andi main_v3 main_v6
  main_v7
-- ==== Kernel.lean ====
abbrev S131072x512 : Shape := ⟨2, ![131072, 512]⟩
abbrev S131072 : Shape := ⟨1, ![131072]⟩
abbrev S_ : Shape := ⟨0, ![]⟩
abbrev S131072x1 : Shape := ⟨2, ![131072, 1]⟩
abbrev S2x1x128 : Shape := ⟨3, ![2, 1, 128]⟩
abbrev S2x128x512 : Shape := ⟨3, ![2, 128, 512]⟩
abbrev S4096x512 : Shape := ⟨2, ![4096, 512]⟩
abbrev S4096x1 : Shape := ⟨2, ![4096, 1]⟩
abbrev S1x1x128 : Shape := ⟨3, ![1, 1, 128]⟩
abbrev S1x128x512 : Shape := ⟨3, ![1, 128, 512]⟩
abbrev S1x128 : Shape := ⟨2, ![1, 128]⟩
abbrev S128x512 : Shape := ⟨2, ![128, 512]⟩
abbrev S2048x128 : Shape := ⟨2, ![2048, 128]⟩
abbrev S2048x512 : Shape := ⟨2, ![2048, 512]⟩
abbrev S2048x1 : Shape := ⟨2, ![2048, 1]⟩
abbrev S2048 : Shape := ⟨1, ![2048]⟩
abbrev S128 : Shape := ⟨1, ![128]⟩
abbrev S2x1x100 : Shape := ⟨3, ![2, 1, 100]⟩
abbrev S2x100 : Shape := ⟨2, ![2, 100]⟩
abbrev S100 : Shape := ⟨1, ![100]⟩
abbrev S2x100x512 : Shape := ⟨3, ![2, 100, 512]⟩
abbrev S100x512 : Shape := ⟨2, ![100, 512]⟩
abbrev S100x1 : Shape := ⟨2, ![100, 1]⟩

abbrev nBuf : Space → Nat
  | .hbm => 63
  | .vmem => 10
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S131072, .i32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S2x1x128, .f32⟩
  | .hbm, ⟨12, _⟩ => ⟨S2x1x128, .f32⟩
  | .hbm, ⟨13, _⟩ => ⟨S2x128x512, .f32⟩
  | .hbm, ⟨14, _⟩ => ⟨S2x1x100, .f32⟩
  | .hbm, ⟨15, _⟩ => ⟨S2x100, .f32⟩
  | .hbm, ⟨16, _⟩ => ⟨S_, .f32⟩
  | .hbm, ⟨17, _⟩ => ⟨S100, .f32⟩
  | .hbm, ⟨18, _⟩ => ⟨S2x1x100, .f32⟩
  | .hbm, ⟨19, _⟩ => ⟨S2x100, .f32⟩
  | .hbm, ⟨20, _⟩ => ⟨S_, .f32⟩
  | .hbm, ⟨21, _⟩ => ⟨S100, .f32⟩
  | .hbm, ⟨22, _⟩ => ⟨S2x100x512, .f32⟩
  | .hbm, ⟨23, _⟩ => ⟨S_, .f32⟩
  | .hbm, ⟨24, _⟩ => ⟨S100x512, .f32⟩
  | .hbm, ⟨25, _⟩ => ⟨S_, .f32⟩
  | .hbm, ⟨26, _⟩ => ⟨S100, .f32⟩
  | .hbm, ⟨27, _⟩ => ⟨S100, .f32⟩
  | .hbm, ⟨28, _⟩ => ⟨S100x1, .f32⟩
  | .hbm, ⟨29, _⟩ => ⟨S100x512, .f32⟩
  | .hbm, ⟨30, _⟩ => ⟨S100x512, .f32⟩
  | .hbm, ⟨31, _⟩ => ⟨S100x512, .f32⟩
  | .hbm, ⟨32, _⟩ => ⟨S_, .f32⟩
  | .hbm, ⟨33, _⟩ => ⟨S100, .f32⟩
  | .hbm, ⟨34, _⟩ => ⟨S100, .f32⟩
  | .hbm, ⟨35, _⟩ => ⟨S100, .f32⟩
  | .hbm, ⟨36, _⟩ => ⟨S_, .f32⟩
  | .hbm, ⟨37, _⟩ => ⟨S100, .f32⟩
  | .hbm, ⟨38, _⟩ => ⟨S100, .f32⟩
  | .hbm, ⟨39, _⟩ => ⟨S_, .f32⟩
  | .hbm, ⟨40, _⟩ => ⟨S100, .f32⟩
  | .hbm, ⟨41, _⟩ => ⟨S100, .f32⟩
  | .hbm, ⟨42, _⟩ => ⟨S100, .f32⟩
  | .hbm, ⟨43, _⟩ => ⟨S_, .f32⟩
  | .hbm, ⟨44, _⟩ => ⟨S100, .f32⟩
  | .hbm, ⟨45, _⟩ => ⟨S100, .i1⟩
  | .hbm, ⟨46, _⟩ => ⟨S100, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S100, .f32⟩
  | .hbm, ⟨52, _⟩ => ⟨S100, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128x512, .f32⟩
  | .local _ .vmem, ⟨9, _⟩ => ⟨S1x128x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_cst_11 : Ref sig .tc := ⟨.hbm, 55, rfl⟩
abbrev main_v31 : Ref sig .tc := ⟨.hbm, 56, rfl⟩
abbrev main_cst_12 : Ref sig .tc := ⟨.hbm, 57, rfl⟩
abbrev main_v32 : Ref sig .tc := ⟨.hbm, 58, rfl⟩
abbrev main_v33 : Ref sig .tc := ⟨.hbm, 59, rfl⟩
abbrev main_cst_13 : Ref sig .tc := ⟨.hbm, 60, rfl⟩
abbrev main_call2_v0 : Ref sig .tc := ⟨.hbm, 61, rfl⟩
abbrev main_v34 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2_i32 : BitVec 32 := 2#32
  let v4 : BitVec 32 := Scalar.addi c0_i32_1 c2_i32
  let c1_i32 : BitVec 32 := 1#32
  ⟨c0_i32_1, v4, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v5 : BitVec 32 := Scalar.muli arg7 c1_i32_3
  let v6 : BitVec 32 := Scalar.addi c0_i32_4 v5
  let c2048_i32 : BitVec 32 := 2048#32
  let v7 : BitVec 32 := Scalar.muli v6 c2048_i32
  v7
def k0_off1 (k0_t1 : Fin k0_t1_loop.trips) : Fin 2 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v5 : BitVec 32 := Scalar.muli arg7 c1_i32_3
  let v6 : BitVec 32 := Scalar.addi c0_i32_4 v5
  let c2048_i32 : BitVec 32 := 2048#32
  let v7 : BitVec 32 := Scalar.muli v6 c2048_i32
  let v8 : BitVec 32 := v7
  let v9 : Index := Scalar.indexCast v8
  let c0 : Index := 0#32
  ![v9.toNat, 0]
def k0_off2 (k0_t1 : Fin k0_t1_loop.trips) : Fin 2 → Nat :=
  let c0_i32_4 : BitVec 32 := 0#32
  let c0_i32_1 : BitVec 32 := 0#32
  let c1_i32 : BitVec 32 := 1#32
  let arg7 : BitVec 32 := Scf.iv c0_i32_1 c1_i32 k0_t1
  let c1_i32_3 : BitVec 32 := 1#32
  let v5 : BitVec 32 := Scalar.muli arg7 c1_i32_3
  let v6 : BitVec 32 := Scalar.addi c0_i32_4 v5
  let c2048_i32 : BitVec 32 := 2048#32
  let v7 : BitVec 32 := Scalar.muli v6 c2048_i32
  let v8 : BitVec 32 := v7
  let v11 : Index := Scalar.indexCast v8
  let c0_5 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S131072 : S_.BroadcastsInDim S131072 (![] : Fin 0 → Fin S131072.rank)
  shapeCasts_S131072_S131072x1 : S131072.ShapeCasts S131072x1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  iota_S2048x128_d1_w32 : S2048x128.Iotas .tc 32 [1]
  h_S2048x512 : 0 < S2048x512.numel
  h_S2048x1 : 0 < S2048x1.numel
  shapeCasts_S2048x1_S2048x1 : S2048x1.ShapeCasts S2048x1
  broadcasts_S2048x1_S2048x128 : S2048x1.Broadcasts S2048x128
  natLt_1_32 : 1 < 32
  bitsLt_bf16_f32 : FTy.bits .bf16 < FTy.bits .f32
  reduces_S2048x512_S2048 : S2048x512.Reduces [1] S2048
  shapeCasts_S2048_S2048x1 : S2048.ShapeCasts S2048x1
  reduces_S2048x128_S128 : S2048x128.Reduces [0] S128
  shapeCasts_S128_S1x128 : S128.ShapeCasts S1x128
  slices_S2x1x128_S2x1x100_0_0_0 : S2x1x128.Slices ![0, 0, 0] S2x1x100
  shapeCasts_S2x1x100_S2x100 : S2x1x100.ShapeCasts S2x100
  reducesTo_S2x100_S100_d0 : S2x100.ReducesTo [0] S100
  h_S_ : 0 < S_.numel
  slices_S2x128x512_S2x100x512_0_0_0 : S2x128x512.Slices ![0, 0, 0] S2x100x512
  reducesTo_S2x100x512_S100x512_d0 : S2x100x512.ReducesTo [0] S100x512
  bcast_S_S100 : S_.BroadcastsInDim S100 (![] : Fin 0 → Fin S100.rank)
  bcast_S100_S100x1_0 : S100.BroadcastsInDim S100x1 (![0] : Fin 1 → Fin S100x1.rank)
  bcast_S100x1_S100x512_0_1 : S100x1.BroadcastsInDim S100x512 (![0, 1] : Fin 2 → Fin S100x512.rank)
  reducesTo_S100x512_S100_d1 : S100x512.ReducesTo [1] S100
  reducesTo_S100_S_d0 : S100.ReducesTo [0] S_
  dot_S2048x128_S2048x512_S128x512_0_0_1_1_n_n_wf : DotDims.WF S2048x128 S2048x512 S128x512 [0] [0] [1] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x512.size a ≤ S4096x512.size a
  k0_off2_inb : ∀ k0_t1 : Fin k0_t1_loop.trips, ∀ a, (k0_off2 k0_t1) a + S2048x1.size a ≤ S4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S2x128x512.size a
  hwx0_4 : ∀ i : grid0.Coords, EltTy.bits .f32 = 32 ∨ (Rect.block (s := S2x128x512) S1x128x512.size (cc0_transform_4 i) (hinb0_4 i)).WholeWords (EltTy.packing .f32)

variable [Facts₀]

def dot_S2048x128_S2048x512_S128x512_0_0_1_1_n_n : DotDims S2048x128 S2048x512 S128x512 where
  lhsContracting := [0]
  rhsContracting := [0]
  lhsNonContracting := [1]
  rhsNonContracting := [1]
  lhsBatch := []
  rhsBatch := []
  wf := dot_S2048x128_S2048x512_S128x512_0_0_1_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S_ : Shape := ⟨0, ![]⟩
abbrev S100 : Shape := ⟨1, ![100]⟩
abbrev S131072x1 : Shape := ⟨2, ![131072, 1]⟩
abbrev S100x512 : Shape := ⟨2, ![100, 512]⟩
abbrev S100x1 : Shape := ⟨2, ![100, 1]⟩

abbrev nBuf : Space → Nat
  | .hbm => 57
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S_, .f32⟩
  | .hbm, ⟨3, _⟩ => ⟨S131072, .f32⟩
  | .hbm, ⟨4, _⟩ => ⟨S_, .f32⟩
  | .hbm, ⟨5, _⟩ => ⟨S100, .f32⟩
  | .hbm, ⟨6, _⟩ => ⟨S131072x1, .i32⟩
  | .hbm, ⟨7, _⟩ => ⟨S100, .f32⟩
  | .hbm, ⟨8, _⟩ => ⟨S_, .f32⟩
  | .hbm, ⟨9, _⟩ => ⟨S100x512, .f32⟩
  | .hbm, ⟨10, _⟩ => ⟨S131072x1, .i32⟩
  | .hbm, ⟨11, _⟩ => ⟨S100x512, .f32⟩
  | .hbm, ⟨12, _⟩ => ⟨S131072x512, .f32⟩
  | .hbm, ⟨13, _⟩ => ⟨S_, .f32⟩
  | .hbm, ⟨14, _⟩ => ⟨S131072, .f32⟩
  | .hbm, ⟨15, _⟩ => ⟨S_, .f32⟩
  | .hbm, ⟨16, _⟩ => ⟨S100, .f32⟩
  | .hbm, ⟨17, _⟩ => ⟨S131072x1, .i32⟩
  | .hbm, ⟨18, _⟩ => ⟨S100, .f32⟩
  | .hbm, ⟨19, _⟩ => ⟨S_, .f32⟩
  | .hbm, ⟨20, _⟩ => ⟨S100, .f32⟩
  | .hbm, ⟨21, _⟩ => ⟨S100, .f32⟩
  | .hbm, ⟨22, _⟩ => ⟨S100x1, .f32⟩
  | .hbm, ⟨23, _⟩ => ⟨S100x512, .f32⟩
  | .hbm, ⟨24, _⟩ => ⟨S100x512, .f32⟩
  | .hbm, ⟨25, _⟩ => ⟨S100x512, .f32⟩
  | .hbm, ⟨26, _⟩ => ⟨S_, .f32⟩
  | .hbm, ⟨27, _⟩ => ⟨S100, .f32⟩
  | .hbm, ⟨28, _⟩ => ⟨S100, .f32⟩
  | .hbm, ⟨29, _⟩ => ⟨S100, .f32⟩
  | .hbm, ⟨30, _⟩ => ⟨S_, .f32⟩
  | .hbm, ⟨31, _⟩ => ⟨S100, .f32⟩
  | .hbm, ⟨32, _⟩ => ⟨S100, .f32⟩
  | .hbm, ⟨33, _⟩ => ⟨S_, .f32⟩
  | .hbm, ⟨34, _⟩ => ⟨S100, .f32⟩
  | .hbm, ⟨35, _⟩ => ⟨S100, .f32⟩
  | .hbm, ⟨36, _⟩ => ⟨S100, .f32⟩
  | .hbm, ⟨37, _⟩ => ⟨S_, .f32⟩
  | .hbm, ⟨38, _⟩ => ⟨S100, .f32⟩
  | .hbm, ⟨39, _⟩ => ⟨S100, .i1⟩
  | .hbm, ⟨40, _⟩ => ⟨S100, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S100, .f32⟩
  | .hbm, ⟨46, _⟩ => ⟨S100, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_cst_10 : Ref sig .tc := ⟨.hbm, 43, rfl⟩
abbrev main_call0_v0 : Ref sig .tc := ⟨.hbm, 44, rfl⟩
abbrev main_call0_v1 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_cst_12 : Ref sig .tc := ⟨.hbm, 49, rfl⟩
abbrev main_v32 : Ref sig .tc := ⟨.hbm, 50, rfl⟩
abbrev main_cst_13 : Ref sig .tc := ⟨.hbm, 51, rfl⟩
abbrev main_v33 : Ref sig .tc := ⟨.hbm, 52, rfl⟩
abbrev main_v34 : Ref sig .tc := ⟨.hbm, 53, rfl⟩
abbrev main_cst_14 : Ref sig .tc := ⟨.hbm, 54, rfl⟩
abbrev main_call1_v0 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S100 : S_.BroadcastsInDim S100 (![] : Fin 0 → Fin S100.rank)
  bcast_S131072_S131072x1_0 : S131072.BroadcastsInDim S131072x1 (![0] : Fin 1 → Fin S131072x1.rank)
  bcast_S_S100x512 : S_.BroadcastsInDim S100x512 (![] : Fin 0 → Fin S100x512.rank)
  reducesTo_S131072x512_S131072_d1 : S131072x512.ReducesTo [1] S131072
  h_S_ : 0 < S_.numel
  bcast_S100_S100x1_0 : S100.BroadcastsInDim S100x1 (![0] : Fin 1 → Fin S100x1.rank)
  bcast_S100x1_S100x512_0_1 : S100x1.BroadcastsInDim S100x512 (![0, 1] : Fin 2 → Fin S100x512.rank)
  reducesTo_S100x512_S100_d1 : S100x512.ReducesTo [1] S100
  reducesTo_S100_S_d0 : S100.ReducesTo [0] S_
  scatter_S100_S131072x1_S131072_n_0_0_1_wf : ScatterDims.WF S100 S131072x1 S131072 [] [0] [0] 1
  scatter_S100x512_S131072x1_S131072x512_1_0_0_1_wf : ScatterDims.WF S100x512 S131072x1 S131072x512 [1] [0] [0] 1

variable [Facts₀]

def scatter_S100_S131072x1_S131072_n_0_0_1 : ScatterDims S100 S131072x1 S131072 where
  updateWindowDims := []
  insertedWindowDims := [0]
  scatterDimsToOperandDims := [0]
  indexVectorDim := 1
  wf := scatter_S100_S131072x1_S131072_n_0_0_1_wf
def scatter_S100x512_S131072x1_S131072x512_1_0_0_1 : ScatterDims S100x512 S131072x1 S131072x512 where
  updateWindowDims := [1]
  insertedWindowDims := [0]
  scatterDimsToOperandDims := [0]
  indexVectorDim := 1
  wf := scatter_S100x512_S131072x1_S131072x512_1_0_0_1_wf

class Facts : Prop extends Facts₀ where

variable [Facts]
-- ==== Proof.Spec.lean ====
/-
  What both programs compute, stated over literal shapes at the extended reals.

  Each of the N = 131072 rows carries a label word and a feature vector of D = 512 extended reals. For a class c the
  three per-class quantities are the number of rows labelled c, the sum over those rows of the row's squared norm, and
  the sum over those rows of the feature vector. The loss is ONE function of those three arrays ("lossOf"): the class
  mean is the feature sum over max(count, 1); the sum of squared deviations is the squared-norm sum minus count times
  the mean's squared norm; its quotient by max(count - 1, 1) is kept for the classes with count >= 2, summed, and
  divided by max(number of such classes, 1) when there is one, else the loss is 0.

  The reference reads a row's class off its label word as a signed integer, and a row whose label is outside [0, 100)
  belongs to no class. The kernel first clamps the label into [0, 127] and compares the clamped word with the class
  number, over 128 padded classes of which the first 100 are kept. On a label that is not negative the two agree for
  every class below 100; this module only states the two sides.
-/
import Idealize.ShloMosaic.PureOps.Ideal
import Idealize.ShloMosaic.PureOps.Ideal.Laws
import Idealize.ShloMosaic.Lib.ValueIdx

noncomputable section

namespace Cert.SegVar

open Idealize.ShloMosaic Idealize.ShloMosaic.ValueIdx

abbrev ShN : Shape := ⟨1, ![131072]⟩
abbrev ShNxD : Shape := ⟨2, ![131072, 512]⟩
abbrev ShC : Shape := ⟨1, ![100]⟩
abbrev ShCx1 : Shape := ⟨2, ![100, 1]⟩
abbrev ShCxD : Shape := ⟨2, ![100, 512]⟩
abbrev Sh0 : Shape := ⟨0, ![]⟩
abbrev Sh2x1xP : Shape := ⟨3, ![2, 1, 128]⟩
abbrev Sh2x1xC : Shape := ⟨3, ![2, 1, 100]⟩
abbrev Sh2xC : Shape := ⟨2, ![2, 100]⟩
abbrev Sh2xPxD : Shape := ⟨3, ![2, 128, 512]⟩
abbrev Sh2xCxD : Shape := ⟨3, ![2, 100, 512]⟩

/-- The kernel's clamp of one label word into [0, 127], read signed: min(127, max(0, l)). -/
def clipW (l : BitVec 32) : BitVec 32 := IntOp.minsi 127#32 (IntOp.maxsi 0#32 l)

/-- A row's membership in the padded class q as an extended real: 1 when its (clamped) label word is the class
    number, else 0. -/
def hitW (l : BitVec 32) (q : ℕ) : EReal := if l = BitVec.ofNat 32 q then 1 else 0

/-- The loss as one function of the per-class counts, squared-norm sums and feature sums. -/
def lossOf (cnt sq : FVec Ideal ShC .f32) (sums : FVec Ideal ShCxD .f32) : FVec Ideal Sh0 .f32 :=
  let one : FVec Ideal ShC .f32 := broadcastInDim ShC ![] (by decide) (constant (F := Ideal) Sh0 .f32 0x3F800000#32)
  let safeN : FVec Ideal ShC .f32 := maximumf cnt one
  let safeN1 : FVec Ideal ShCx1 .f32 := broadcastInDim ShCx1 ![0] (by decide) safeN
  let safeN2 : FVec Ideal ShCxD .f32 := broadcastInDim ShCxD ![0, 1] (by decide) safeN1
  let mu : FVec Ideal ShCxD .f32 := Host.divf sums safeN2
  let mu2 : FVec Ideal ShCxD .f32 := mulf mu mu
  let nrm : FVec Ideal ShC .f32 := Host.reduceAdd (axes := [1]) mu2 (constant (F := Ideal) Sh0 .f32 0x00000000#32) (by decide) (by decide)
  let ssd : FVec Ideal ShC .f32 := subf sq (mulf cnt nrm)
  let den : FVec Ideal ShC .f32 := maximumf (subf cnt one) one
  let tr : FVec Ideal ShC .f32 := Host.divf ssd den
  let valid : IVec ShC 1 := cmpf .oge cnt (broadcastInDim ShC ![] (by decide) (constant (F := Ideal) Sh0 .f32 0x40000000#32))
  let nvalid : FVec Ideal Sh0 .f32 := Host.reduceAdd (axes := [0]) (uitofp .f32 valid : FVec Ideal ShC .f32) (constant (F := Ideal) Sh0 .f32 0x00000000#32) (by decide) (by decide)
  let kept : FVec Ideal ShC .f32 := select valid tr (broadcastInDim ShC ![] (by decide) (constant (F := Ideal) Sh0 .f32 0x00000000#32))
  let total : FVec Ideal Sh0 .f32 := Host.reduceAdd (axes := [0]) kept (constant (F := Ideal) Sh0 .f32 0x00000000#32) (by decide) (by decide)
  let some : IVec Sh0 1 := cmpf .ogt nvalid (constant (F := Ideal) Sh0 .f32 0x00000000#32)
  let q : FVec Ideal Sh0 .f32 := Host.divf total (maximumf nvalid (constant (F := Ideal) Sh0 .f32 0x3F800000#32))
  select some q (constant (F := Ideal) Sh0 .f32 0x00000000#32)

/-- From the kernel's padded per-chunk array [2, 1, 128] to per-class values [100]: keep the first 100 classes,
    drop the unit axis, add the two chunks (from the zero word). -/
def perClass2 (A : FVec Ideal Sh2x1xP .f32) : FVec Ideal ShC .f32 :=
  Host.reduceAdd (axes := [0])
    (shapeCast Sh2xC (extractStridedSlice Sh2x1xC ![0, 0, 0] A (by decide)) (by decide) : FVec Ideal Sh2xC .f32)
    (constant (F := Ideal) Sh0 .f32 0x00000000#32) (by decide) (by decide)

/-- From the kernel's padded per-chunk array [2, 128, 512] to per-class rows [100, 512]: keep the first 100 classes,
    add the two chunks (from the zero word). -/
def perClass3 (A : FVec Ideal Sh2xPxD .f32) : FVec Ideal ShCxD .f32 :=
  Host.reduceAdd (axes := [0])
    (extractStridedSlice Sh2xCxD ![0, 0, 0] A (by decide) : FVec Ideal Sh2xCxD .f32)
    (constant (F := Ideal) Sh0 .f32 0x00000000#32) (by decide) (by decide)

/-- The reference's count of class c: one (the word 1.0) for every row whose label, read signed, is c. -/
def refCnt (ℓ : IVec ShN 32) : FVec Ideal ShC .f32 := fun j =>
  ∑ n : Fin 131072, if (ℓ (ix1 n)).toInt = ((j 0).val : ℤ) then Ideal.ofBits .f32 0x3F800000#32 else 0

/-- The reference's squared-norm sum of class c: the row's sum of squares for every row labelled c. -/
def refSq (X : FVec Ideal ShNxD .f32) (ℓ : IVec ShN 32) : FVec Ideal ShC .f32 := fun j =>
  ∑ n : Fin 131072, if (ℓ (ix1 n)).toInt = ((j 0).val : ℤ) then (∑ d : Fin 512, X (ix2 n d) * X (ix2 n d)) else 0

/-- The reference's feature sum of class c at feature d: the row's entry for every row labelled c. -/
def refSum (X : FVec Ideal ShNxD .f32) (ℓ : IVec ShN 32) : FVec Ideal ShCxD .f32 := fun j =>
  ∑ n : Fin 131072, if (ℓ (ix1 n)).toInt = ((j 0).val : ℤ) then X (ix2 n (j 1)) else 0

end Cert.SegVar

end
-- ==== Proof.RefSide.lean ====
/-
  The reference, read: its result is the loss of the three segment sums.

  Each of the reference's three segment sums is a scatter of one update per row into a zero array of 100 classes (100 x 512
  for the feature sums): a row lands on class c exactly when its label word, read as a signed integer, is c, and a row whose
  label is outside [0, 100) lands nowhere. So a class's entry is the zero word plus the sum of the updates of the rows
  labelled c: the word 1.0 (counts), the row's sum of squares (squared norms), the row's entry (feature sums).
-/
import proofs.«419640_j9388798509066_3_alg».proof.Proof.RefRun
import proofs.«419640_j9388798509066_3_alg».proof.Proof.Spec
import Idealize.ShloMosaic.Lib.Pipeline.Value
import Idealize.ShloMosaic.Lib.ValueLayout
import Idealize.ShloMosaic.Lib.ValueIdxRank1

noncomputable section

namespace Cert.SegVar.Ref

open Idealize.ShloMosaic Idealize.ShloMosaic.ValueIdx Idealize.ShloMosaic.TcCoe Idealize.SL.Sem
open Cert.ReferenceIdeal Cert.ReferenceIdeal.Gen Cert.SegVar

/-- An update lands on an operand element exactly when, on every axis, the signed start plus the window coordinate is
    the element's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    by_cases hh : ∀ a, 0 ≤ d.start j idx a + d.window j a ∧ d.start j idx a + d.window j a < s.size a
    · rw [dif_pos hh] at h
      have h0 := Option.some.inj h
      intro a
      have h1 : ((d.start j idx a + d.window j a).toNat) = (i a).val := congrArg Fin.val (congrFun h0 a)
      have h2 := hh a
      omega
    · rw [dif_neg hh] at h; cases h
  · intro h
    have hh : ∀ a, 0 ≤ d.start j idx a + d.window j a ∧ d.start j idx a + d.window j a < s.size a := by
      intro a; have := h a; have := (i a).isLt; omega
    rw [dif_pos hh]
    congr 1; funext a; apply Fin.ext
    have := h a
    show (d.start j idx a + d.window j a).toNat = (i a).val
    omega

/-- The count scatter reads the start of update row n at the label column's entry (n, 0). -/
theorem siIdx1 (j : S131072.Idx) (c : Fin scatter_S100_S131072x1_S131072_n_0_0_1.scatterDimsToOperandDims.length) :
    scatter_S100_S131072x1_S131072_n_0_0_1.siIdx j c = ix2 (j 0) 0 := by
  funext b
  apply Fin.ext
  match b with
  | ⟨0, h0⟩ =>
    have hn : ¬ ((⟨0, h0⟩ : Fin S131072x1.rank).val = scatter_S100_S131072x1_S131072_n_0_0_1.indexVectorDim) := Nat.zero_ne_one
    unfold ScatterDims.siIdx
    rw [dif_neg hn]
    unfold ScatterDims.siCoord
    simp only [Fin.coe_cast]
    congr 2
  | ⟨1, h1⟩ =>
    have : (scatter_S100_S131072x1_S131072_n_0_0_1.siIdx j c ⟨1, h1⟩).val < 1 := (scatter_S100_S131072x1_S131072_n_0_0_1.siIdx j c ⟨1, h1⟩).isLt
    show _ = 0
    omega

/-- The feature scatter reads the start of update (n, d) at the label column's entry (n, 0). -/
theorem siIdx2 (j : S131072x512.Idx) (c : Fin scatter_S100x512_S131072x1_S131072x512_1_0_0_1.scatterDimsToOperandDims.length) :
    scatter_S100x512_S131072x1_S131072x512_1_0_0_1.siIdx j c = ix2 (j 0) 0 := by
  funext b
  apply Fin.ext
  match b with
  | ⟨0, h0⟩ =>
    have hn : ¬ ((⟨0, h0⟩ : Fin S131072x1.rank).val = scatter_S100x512_S131072x1_S131072x512_1_0_0_1.indexVectorDim) := Nat.zero_ne_one
    unfold ScatterDims.siIdx
    rw [dif_neg hn]
    unfold ScatterDims.siCoord
    simp only [Fin.coe_cast]
    rfl
  | ⟨1, h1⟩ =>
    have : (scatter_S100x512_S131072x1_S131072x512_1_0_0_1.siIdx j c ⟨1, h1⟩).val < 1 := (scatter_S100x512_S131072x1_S131072x512_1_0_0_1.siIdx j c ⟨1, h1⟩).isLt
    show _ = 0
    omega

theorem start1 (j : S131072.Idx) (idx : IVec S131072x1 32) (a : Fin S100.rank) :
    scatter_S100_S131072x1_S131072_n_0_0_1.start j idx a = (idx (ix2 (j 0) 0)).toInt := by
  have ha : a ∈ scatter_S100_S131072x1_S131072_n_0_0_1.scatterDimsToOperandDims := by
    have : a = 0 := Subsingleton.elim _ _
    subst this; decide
  unfold ScatterDims.start
  rw [dif_pos ha, siIdx1]
  rfl

theorem window1 (j : S131072.Idx) (a : Fin S100.rank) :
    scatter_S100_S131072x1_S131072_n_0_0_1.window j a = 0 := by
  have ha : ¬ a ∈ scatter_S100_S131072x1_S131072_n_0_0_1.sKept := by
    have : a = 0 := Subsingleton.elim _ _
    subst this; decide
  unfold ScatterDims.window
  rw [dif_neg ha]

theorem start2 (j : S131072x512.Idx) (idx : IVec S131072x1 32) :
    scatter_S100x512_S131072x1_S131072x512_1_0_0_1.start j idx 0 = (idx (ix2 (j 0) 0)).toInt
    ∧ scatter_S100x512_S131072x1_S131072x512_1_0_0_1.start j idx 1 = 0 := by
  have ha : (0 : Fin S100x512.rank) ∈ scatter_S100x512_S131072x1_S131072x512_1_0_0_1.scatterDimsToOperandDims := by decide
  have hb : ¬ (1 : Fin S100x512.rank) ∈ scatter_S100x512_S131072x1_S131072x512_1_0_0_1.scatterDimsToOperandDims := by decide
  unfold ScatterDims.start
  rw [dif_pos ha, dif_neg hb, siIdx2]
  exact ⟨rfl, rfl⟩

theorem window2 (j : S131072x512.Idx) :
    scatter_S100x512_S131072x1_S131072x512_1_0_0_1.window j 0 = 0
    ∧ scatter_S100x512_S131072x1_S131072x512_1_0_0_1.window j 1 = (j 1).val := by
  have ha : ¬ (0 : Fin S100x512.rank) ∈ scatter_S100x512_S131072x1_S131072x512_1_0_0_1.sKept := by decide
  have hb : (1 : Fin S100x512.rank) ∈ scatter_S100x512_S131072x1_S131072x512_1_0_0_1.sKept := by decide
  unfold ScatterDims.window
  rw [dif_neg ha, dif_pos hb]
  exact ⟨rfl, rfl⟩

/-- An update row lands on class i of the 100-class array exactly when its label, read signed, is i. -/
theorem res1_iff (idx : IVec S131072x1 32) (j : S131072.Idx) (i : S100.Idx) :
    scatter_S100_S131072x1_S131072_n_0_0_1.resultIdx? j idx = some i ↔ (idx (ix2 (j 0) 0)).toInt = ((i 0).val : ℤ) := by
  rw [resultIdx?_eq_some_iff]
  constructor
  · intro h
    have h0 := h 0
    rw [start1, window1] at h0
    simpa using h0
  · intro h a
    have : a = 0 := Subsingleton.elim _ _
    subst this
    rw [start1, window1]
    simpa using h

/-- An update (n, d) lands on element (i, e) of the 100 x 512 array exactly when row n's label, read signed, is i and d = e. -/
theorem res2_iff (idx : IVec S131072x1 32) (j : S131072x512.Idx) (i : S100x512.Idx) :
    scatter_S100x512_S131072x1_S131072x512_1_0_0_1.resultIdx? j idx = some i
      ↔ (idx (ix2 (j 0) 0)).toInt = ((i 0).val : ℤ) ∧ (j 1).val = (i 1).val := by
  rw [resultIdx?_eq_some_iff]
  obtain ⟨s0, s1⟩ := start2 j idx
  obtain ⟨w0, w1⟩ := window2 j
  constructor
  · intro h
    have h0 := h 0
    have h1 := h 1
    rw [s0, w0] at h0
    rw [s1, w1] at h1
    refine ⟨by simpa using h0, ?_⟩
    have : ((j 1).val : ℤ) = ((i 1).val : ℤ) := by simpa using h1
    exact_mod_cast this
  · rintro ⟨h0, h1⟩ a
    match a with
    | ⟨0, _⟩ => show scatter_S100x512_S131072x1_S131072x512_1_0_0_1.start j idx 0 + (scatter_S100x512_S131072x1_S131072x512_1_0_0_1.window j 0 : ℤ) = _
                rw [s0, w0]; simpa using h0
    | ⟨1, _⟩ => show scatter_S100x512_S131072x1_S131072x512_1_0_0_1.start j idx 1 + (scatter_S100x512_S131072x1_S131072x512_1_0_0_1.window j 1 : ℤ) = _
                rw [s1, w1, h1]; simp

/-- The label column's entry (n, 0) is row n's label. -/
theorem col_apply (ℓ : IVec S131072 32) (n : Fin 131072) :
    broadcastInDim S131072x1 ![0] bcast_S131072_S131072x1_0 ℓ (ix2 n 0) = ℓ (ix1 n) := by
  unfold broadcastInDim
  congr 1
  funext a
  match a with
  | ⟨0, _⟩ => rfl

/-- A scatter of one update per row into the zero array of 100 classes: class i collects the updates of the rows whose
    label, read signed, is i. -/
theorem scatter1_eq (ℓ : IVec S131072 32) (upd : FVec Ideal S131072 .f32) :
    Host.scatterAdd scatter_S100_S131072x1_S131072_n_0_0_1
      (broadcastInDim S100 ![] bcast_S_S100 (constant (F := Ideal) S_ .f32 0x00000000#32))
      (broadcastInDim S131072x1 ![0] bcast_S131072_S131072x1_0 ℓ) upd
    = fun i => ∑ n : Fin 131072, if (ℓ (ix1 n)).toInt = ((i 0).val : ℤ) then upd (ix1 n) else 0 := by
  funext i
  show Ideal.hostScatterAdd _ _ _ _ i = _
  unfold Ideal.hostScatterAdd
  have hz : broadcastInDim S100 ![] bcast_S_S100 (constant (F := Ideal) S_ .f32 0x00000000#32) i = 0 := Ideal.ofBits_zero_f32
  rw [hz, zero_add]
  simp only [res1_iff]
  rw [Finset.sum_filter, ← Equiv.sum_comp (idxEquiv1 (n := 131072)).symm]
  refine Finset.sum_congr rfl fun n _ => ?_
  show (if (broadcastInDim S131072x1 ![0] bcast_S131072_S131072x1_0 ℓ (ix2 n 0)).toInt = _ then upd (ix1 n) else 0) = _
  rw [col_apply]

theorem cnt_eq (ℓ : IVec S131072 32) :
    Host.scatterAdd scatter_S100_S131072x1_S131072_n_0_0_1
      (broadcastInDim S100 ![] bcast_S_S100 (constant (F := Ideal) S_ .f32 0x00000000#32))
      (broadcastInDim S131072x1 ![0] bcast_S131072_S131072x1_0 ℓ)
      (broadcastInDim S131072 ![] bcast_S_S131072 (constant (F := Ideal) S_ .f32 0x3F800000#32))
    = refCnt ℓ := by
  rw [scatter1_eq]
  rfl

/-- A row's sum of squares: the reduction over the feature axis from the zero word. -/
theorem rowsq_apply (X : FVec Ideal S131072x512 .f32) (n : Fin 131072) :
    Host.reduceAdd (mulf X X) (constant (F := Ideal) S_ .f32 0x00000000#32) reducesTo_S131072x512_S131072_d1 h_S_ (ix1 n)
      = ∑ d : Fin 512, X (ix2 n d) * X (ix2 n d) := by
  have h : S131072x512.Reduces [1] S131072 := by decide
  show Ideal.hostReduceAdd reducesTo_S131072x512_S131072_d1 (mulf X X) (Ideal.ofBits .f32 0x00000000#32) (ix1 n) = _
  rw [Ideal.hostReduceAdd_single _ h, Ideal.ofBits_zero_f32, zero_add]
  refine Finset.sum_congr rfl fun d _ => ?_
  have e : h.lift (ix1 n) d = ix2 n d := by
    funext a
    match a with
    | ⟨0, _⟩ => exact Fin.ext rfl
    | ⟨1, _⟩ => exact Fin.ext rfl
  rw [e]; rfl

theorem sq_eq (X : FVec Ideal S131072x512 .f32) (ℓ : IVec S131072 32) :
    Host.scatterAdd scatter_S100_S131072x1_S131072_n_0_0_1
      (broadcastInDim S100 ![] bcast_S_S100 (constant (F := Ideal) S_ .f32 0x00000000#32))
      (broadcastInDim S131072x1 ![0] bcast_S131072_S131072x1_0 ℓ)
      (Host.reduceAdd (mulf X X) (constant (F := Ideal) S_ .f32 0x00000000#32) reducesTo_S131072x512_S131072_d1 h_S_)
    = refSq X ℓ := by
  rw [scatter1_eq]
  funext j
  show _ = ∑ n : Fin 131072, if (ℓ (ix1 n)).toInt = ((j 0).val : ℤ) then (∑ d : Fin 512, X (ix2 n d) * X (ix2 n d)) else 0
  refine Finset.sum_congr rfl fun n _ => ?_
  rw [rowsq_apply]

/-- A sum that keeps one coordinate. -/
theorem sum_pick {M : Type*} [AddCommMonoid M] {n : ℕ} (k : Fin n) (f : Fin n → M) :
    (∑ b : Fin n, if b.val = k.val then f b else 0) = f k := by
  rw [Finset.sum_eq_single k]
  · rw [if_pos rfl]
  · intro b _ hb; rw [if_neg (fun h => hb (Fin.ext h))]
  · intro h; exact absurd (Finset.mem_univ k) h

theorem sum_eq (X : FVec Ideal S131072x512 .f32) (ℓ : IVec S131072 32) :
    Host.scatterAdd scatter_S100x512_S131072x1_S131072x512_1_0_0_1
      (broadcastInDim S100x512 ![] bcast_S_S100x512 (constant (F := Ideal) S_ .f32 0x00000000#32))
      (broadcastInDim S131072x1 ![0] bcast_S131072_S131072x1_0 ℓ) X
    = refSum X ℓ := by
  funext i
  show Ideal.hostScatterAdd _ _ _ _ i = ∑ n : Fin 131072, if (ℓ (ix1 n)).toInt = ((i 0).val : ℤ) then X (ix2 n (i 1)) else 0
  unfold Ideal.hostScatterAdd
  have hz : broadcastInDim S100x512 ![] bcast_S_S100x512 (constant (F := Ideal) S_ .f32 0x00000000#32) i = 0 := Ideal.ofBits_zero_f32
  rw [hz, zero_add]
  simp only [res2_iff]
  rw [Finset.sum_filter, sum_idx2]
  refine Finset.sum_congr rfl fun n _ => ?_
  show (∑ b : Fin 512, if (broadcastInDim S131072x1 ![0] bcast_S131072_S131072x1_0 ℓ (ix2 n 0)).toInt = ((i 0).val : ℤ) ∧ b.val = (i 1).val then X (ix2 n b) else 0) = _
  rw [col_apply]
  by_cases hc : (ℓ (ix1 n)).toInt = ((i 0).val : ℤ)
  · simp only [hc, true_and, if_true]
    exact sum_pick (n := 512) (i 1) (fun b => X (ix2 n b))
  · simp only [hc, false_and, if_false]
    exact Finset.sum_const_zero

set_option maxRecDepth 8192 in
/-- The reference's result term is the loss of the closed-form segment sums of its two arguments. -/
theorem result_eq (m : (ℓ : Loc nD τ sig) → Buf (Elt Ideal) ℓ) (c : Dev nD) :
    Cert.ReferenceIdeal.Value.res_main_v35 (F := Ideal) m c
      = lossOf (refCnt (m ((c.tc : Thread nD τ).loc main_arg1)))
          (refSq (m ((c.tc : Thread nD τ).loc main_arg0)) (m ((c.tc : Thread nD τ).loc main_arg1)))
          (refSum (m ((c.tc : Thread nD τ).loc main_arg0)) (m ((c.tc : Thread nD τ).loc main_arg1))) := by
  unfold Cert.ReferenceIdeal.Value.res_main_v35
  rw [cnt_eq, sq_eq, sum_eq]
  rfl

end Cert.SegVar.Ref

end
-- ==== Proof.LoopPieces.lean ====
/-
  What one grid point does to the three accumulators, as pure terms.

  A grid point streams a tile of 4096 rows in two halves of 2048. Each half adds its contribution to the three
  accumulators (class counts, per-class sums of squared norms, per-class feature sums), reading back what the half
  before left. So the point takes an accumulator `acc` to `step (half 1) (step (half 0) acc)`; at the first point of a
  chunk the accumulators are first reset to zero, and the same two steps are applied to the zero blocks.

  The run over the loop is recorded as a list of stores per accumulator; every store fills its whole block, so the
  block afterwards is the last store's payload, and a load of the block after a store reads that store's payload.
-/
import proofs.«419640_j9388798509066_3_alg».proof.Proof.Gen.KernelIdeal.Frame
import Idealize.ShloMosaic.Lib.Pipeline.Value
import Idealize.ShloMosaic.Lib.Tactic

set_option maxRecDepth 16384

noncomputable section

namespace Cert.SegVar.Body

open Idealize.ShloMosaic Idealize.ShloMosaic.TcCoe Idealize.ShloMosaic.Tactic Idealize.SL.Sem
open Cert.KernelIdeal Cert.KernelIdeal.Gen

variable {F : FTy → Type} [FloatOps F]

theorem hz3 : (![0, 0, 0] : Fin 3 → Nat) = fun _ => 0 := funext fun a => by fin_cases a <;> rfl

/-- The two trips of the loop over the halves. -/
abbrev h0 : Fin k0_t1_loop.trips := ⟨0, by decide⟩
abbrev h1 : Fin k0_t1_loop.trips := ⟨1, by decide⟩

/-- The lane-number grid the body builds once per point: entry (r, q) is q. -/
abbrev lanes : IVec S2048x128 32 := iota .tc S2048x128 32 [1] iota_S2048x128_d1_w32

/-- Half `k` of a tile's label column and of its feature block: rows [2048 k, 2048 k + 2048). -/
abbrev labHalf (k : Fin k0_t1_loop.trips) (x1 : Vec F S4096x1 .i32) : Vec F S2048x1 .i32 :=
  View.ld x1 (Rect.unit (s := S4096x1) (k0_off2 k) S2048x1.size (k0_off2_inb k))
abbrev featHalf (k : Fin k0_t1_loop.trips) (x0 : Vec F S4096x512 .f32) : Vec F S2048x512 .f32 :=
  View.ld x0 (Rect.unit (s := S4096x512) (k0_off1 k) S2048x512.size (k0_off1_inb k))

/-- One tile's update of each accumulator: the second half's step over the first half's. -/
def tile2 (x1 : Vec F S4096x1 .i32) (acc : Vec F S1x1x128 .f32) : Vec F S1x1x128 .f32 :=
  k0_pay9 lanes (labHalf h1 x1) (k0_pay9 lanes (labHalf h0 x1) acc)
def tile3 (x0 : Vec F S4096x512 .f32) (x1 : Vec F S4096x1 .i32) (acc : Vec F S1x1x128 .f32) : Vec F S1x1x128 .f32 :=
  k0_pay4 (k0_pay10 lanes (featHalf h1 x0) (labHalf h1 x1) (k0_pay4 (k0_pay10 lanes (featHalf h0 x0) (labHalf h0 x1) acc)))
def tile4 (x0 : Vec F S4096x512 .f32) (x1 : Vec F S4096x1 .i32) (acc : Vec F S1x128x512 .f32) : Vec F S1x128x512 .f32 :=
  k0_pay5 (k0_pay8 lanes (featHalf h1 x0) (labHalf h1 x1)) (k0_pay5 (k0_pay8 lanes (featHalf h0 x0) (labHalf h0 x1)) acc)

/-! ## Loads after stores, on a whole buffer -/

/-- A load of the whole block after a store of the whole block reads the store's payload. -/
theorem readAt_whole_writes_cons {S : Shape} {e : EltTy} (M : Memref sig .tc .vmem S e) {off : Fin S.rank → Nat}
    (hz : off = fun _ => 0) (inb : ∀ a, off a + S.size a ≤ S.size a) (g : M.view.ty.Contents (Elt F))
    (w : S.Idx → Elt F e) (L : List (View.Piece (Elt F) S e)) :
    View.readAt (Elt F) M.view (Rect.unit off S.size inb).toLoadRect
      (M.view.writes (Elt F) g ((⟨Rect.unit off S.size inb, w⟩ : View.Piece (Elt F) S e) :: L)) = w := by
  rw [View.readAt_eq_ld, View.read_writes_eq_canon _ _ _ (fun y => ⟨_, List.mem_cons_self, View.mem_set_unit_zero hz inb y⟩),
    View.canon_cons_unit_zero hz, View.ld_unit_zero hz]

/-- A load of a whole buffer holding `X` reads `X` through the load's rectangle. -/
theorem readAt_unread {S : Shape} {e : EltTy} {M : Memref sig .tc .vmem S e} (hM : M.IsWhole) (X : S.Idx → Elt F e) (r : Rect S) :
    View.readAt (Elt F) M.view r.toLoadRect (hM.unread X) = View.ld X r := by
  rw [View.readAt_eq_ld, hM.read_unread]

/-! ## One trip's stores, and the two trips -/

section trips
variable (𝒱 : Variants) (c : Dev nD) (bd : Option 𝒱.V) (i : grid0.Coords) (arg2 : Memref sig .tc .vmem S4096x512 .f32) (harg2 : arg2.IsWhole) (arg3 : Memref sig .tc .vmem S4096x1 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128x512 .f32) (harg6 : arg6.IsWhole)
  (v3 : IVec S2048x128 32) (X2 : BufTy.Contents (Elt F) arg2.view.ty) (X3 : BufTy.Contents (Elt F) arg3.view.ty)

/-- The loads of half `k` of the two inputs, as the trip makes them. -/
abbrev rd2 (k : Fin k0_t1_loop.trips) : Vec F S2048x512 .f32 :=
  View.readAt (Elt F) arg2.view (Rect.unit (s := S4096x512) (k0_off1 k) S2048x512.size (k0_off1_inb k)).toLoadRect X2
abbrev rd3 (k : Fin k0_t1_loop.trips) : Vec F S2048x1 .i32 :=
  View.readAt (Elt F) arg3.view (Rect.unit (s := S4096x1) (k0_off2 k) S2048x1.size (k0_off2_inb k)).toLoadRect X3

/-- One trip stores, into each accumulator's whole block, its step over what it finds there: the counts, -/
theorem trip_cnt (k : Fin k0_t1_loop.trips) (f4 : BufTy.Contents (Elt F) arg4.view.ty) (f5 : BufTy.Contents (Elt F) arg5.view.ty)
    (f6 : BufTy.Contents (Elt F) arg6.view.ty) :
    (trip_k0_t1 (F := F) 𝒱 c bd i arg2 harg2 arg3 harg3 arg4 harg4 arg5 harg5 arg6 harg6 v3 X2 X3 k).1 f4 f5 f6
      = [⟨Rect.unit ![0, 0, 0] S1x1x128.size inb_S1x1x128_S1x1x128_0_0_0,
            k0_pay9 v3 (rd3 arg3 X3 k)
              (View.readAt (Elt F) arg4.view (Rect.unit ![0, 0, 0] S1x1x128.size inb_S1x1x128_S1x1x128_0_0_0).toLoadRect f4)⟩] := by
  unfold trip_k0_t1
  rfl

/-- the squared norms, -/
theorem trip_sq (k : Fin k0_t1_loop.trips) (f4 : BufTy.Contents (Elt F) arg4.view.ty) (f5 : BufTy.Contents (Elt F) arg5.view.ty)
    (f6 : BufTy.Contents (Elt F) arg6.view.ty) :
    (trip_k0_t1 (F := F) 𝒱 c bd i arg2 harg2 arg3 harg3 arg4 harg4 arg5 harg5 arg6 harg6 v3 X2 X3 k).2.1 f4 f5 f6
      = [⟨Rect.unit ![0, 0, 0] S1x1x128.size inb_S1x1x128_S1x1x128_0_0_0,
            k0_pay4 (k0_pay10 v3 (rd2 arg2 X2 k) (rd3 arg3 X3 k)
              (View.readAt (Elt F) arg5.view (Rect.unit ![0, 0, 0] S1x1x128.size inb_S1x1x128_S1x1x128_0_0_0).toLoadRect f5))⟩] := by
  unfold trip_k0_t1
  rfl

/-- the feature sums. -/
theorem trip_sum (k : Fin k0_t1_loop.trips) (f4 : BufTy.Contents (Elt F) arg4.view.ty) (f5 : BufTy.Contents (Elt F) arg5.view.ty)
    (f6 : BufTy.Contents (Elt F) arg6.view.ty) :
    (trip_k0_t1 (F := F) 𝒱 c bd i arg2 harg2 arg3 harg3 arg4 harg4 arg5 harg5 arg6 harg6 v3 X2 X3 k).2.2.1 f4 f5 f6
      = [⟨Rect.unit ![0, 0, 0] S1x128x512.size inb_S1x128x512_S1x128x512_0_0_0,
            k0_pay5 (k0_pay8 v3 (rd2 arg2 X2 k) (rd3 arg3 X3 k))
              (View.readAt (Elt F) arg6.view (Rect.unit ![0, 0, 0] S1x128x512.size inb_S1x128x512_S1x128x512_0_0_0).toLoadRect f6)⟩] := by
  unfold trip_k0_t1
  rfl

/-- After the two trips each accumulator has been stored twice, whole: the second store's payload is its step over
    the first's, the first's its step over what the loop found. -/
theorem pb_two (n : ℕ) (hn : n = 2) (G4 : BufTy.Contents (Elt F) arg4.view.ty) (G5 : BufTy.Contents (Elt F) arg5.view.ty)
    (G6 : BufTy.Contents (Elt F) arg6.view.ty) :
    pb_k0_t1 (F := F) 𝒱 c bd i arg2 harg2 arg3 harg3 arg4 harg4 arg5 harg5 arg6 harg6 v3 X2 X3 G4 G5 G6 n
      = ([⟨Rect.unit ![0, 0, 0] S1x1x128.size inb_S1x1x128_S1x1x128_0_0_0,
            k0_pay9 v3 (rd3 arg3 X3 h1) (k0_pay9 v3 (rd3 arg3 X3 h0)
              (View.readAt (Elt F) arg4.view (Rect.unit ![0, 0, 0] S1x1x128.size inb_S1x1x128_S1x1x128_0_0_0).toLoadRect G4))⟩,
          ⟨Rect.unit ![0, 0, 0] S1x1x128.size inb_S1x1x128_S1x1x128_0_0_0,
            k0_pay9 v3 (rd3 arg3 X3 h0)
              (View.readAt (Elt F) arg4.view (Rect.unit ![0, 0, 0] S1x1x128.size inb_S1x1x128_S1x1x128_0_0_0).toLoadRect G4)⟩],
         [⟨Rect.unit ![0, 0, 0] S1x1x128.size inb_S1x1x128_S1x1x128_0_0_0,
            k0_pay4 (k0_pay10 v3 (rd2 arg2 X2 h1) (rd3 arg3 X3 h1) (k0_pay4 (k0_pay10 v3 (rd2 arg2 X2 h0) (rd3 arg3 X3 h0)
              (View.readAt (Elt F) arg5.view (Rect.unit ![0, 0, 0] S1x1x128.size inb_S1x1x128_S1x1x128_0_0_0).toLoadRect G5))))⟩,
          ⟨Rect.unit ![0, 0, 0] S1x1x128.size inb_S1x1x128_S1x1x128_0_0_0,
            k0_pay4 (k0_pay10 v3 (rd2 arg2 X2 h0) (rd3 arg3 X3 h0)
              (View.readAt (Elt F) arg5.view (Rect.unit ![0, 0, 0] S1x1x128.size inb_S1x1x128_S1x1x128_0_0_0).toLoadRect G5))⟩],
         [⟨Rect.unit ![0, 0, 0] S1x128x512.size inb_S1x128x512_S1x128x512_0_0_0,
            k0_pay5 (k0_pay8 v3 (rd2 arg2 X2 h1) (rd3 arg3 X3 h1)) (k0_pay5 (k0_pay8 v3 (rd2 arg2 X2 h0) (rd3 arg3 X3 h0))
              (View.readAt (Elt F) arg6.view (Rect.unit ![0, 0, 0] S1x128x512.size inb_S1x128x512_S1x128x512_0_0_0).toLoadRect G6))⟩,
          ⟨Rect.unit ![0, 0, 0] S1x128x512.size inb_S1x128x512_S1x128x512_0_0_0,
            k0_pay5 (k0_pay8 v3 (rd2 arg2 X2 h0) (rd3 arg3 X3 h0))
              (View.readAt (Elt F) arg6.view (Rect.unit ![0, 0, 0] S1x128x512.size inb_S1x128x512_S1x128x512_0_0_0).toLoadRect G6)⟩]) := by
  subst hn
  rw [(pb_k0_t1_succ (F := F) 𝒱 c bd i arg2 harg2 arg3 harg3 arg4 harg4 arg5 harg5 arg6 harg6 v3 X2 X3 G4 G5 G6 h1 :
    pb_k0_t1 (F := F) 𝒱 c bd i arg2 harg2 arg3 harg3 arg4 harg4 arg5 harg5 arg6 harg6 v3 X2 X3 G4 G5 G6 2 = _)]
  rw [(pb_k0_t1_succ (F := F) 𝒱 c bd i arg2 harg2 arg3 harg3 arg4 harg4 arg5 harg5 arg6 harg6 v3 X2 X3 G4 G5 G6 h0 :
    pb_k0_t1 (F := F) 𝒱 c bd i arg2 harg2 arg3 harg3 arg4 harg4 arg5 harg5 arg6 harg6 v3 X2 X3 G4 G5 G6 (h1 : Fin k0_t1_loop.trips).val = _)]
  rw [(rfl : pb_k0_t1 (F := F) 𝒱 c bd i arg2 harg2 arg3 harg3 arg4 harg4 arg5 harg5 arg6 harg6 v3 X2 X3 G4 G5 G6 (h0 : Fin k0_t1_loop.trips).val = ([], [], []))]
  simp only [trip_cnt, trip_sq, trip_sum, List.append_nil, List.cons_append, List.nil_append, View.writes_nil,
    readAt_whole_writes_cons (S := S1x1x128) _ hz3, readAt_whole_writes_cons (S := S1x128x512) _ hz3]
  rfl

end trips

/-! ## What each case leaves in each accumulator -/

section cases
variable (c : Dev nD) (i : grid0.Coords) (arg2 : Memref sig .tc .vmem S4096x512 .f32) (harg2 : arg2.IsWhole) (arg3 : Memref sig .tc .vmem S4096x1 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128x512 .f32) (harg6 : arg6.IsWhole)

theorem trips_two : Scf.trips (0#32) (Scalar.addi 0#32 2#32) 1#32 = 2 := rfl

/-- A point that is not the first of its chunk: each accumulator is the tile's update of what the point before left. -/
theorem out_B_2 (hc0 : ¬cond0_0 i) (x0 : Vec F S4096x512 .f32) (x1 : Vec F S4096x1 .i32)
    (xo2 xo3 : Vec F S1x1x128 .f32) (xo4 : Vec F S1x128x512 .f32) :
    out0_B_2 c i arg2 harg2 arg3 harg3 arg4 harg4 arg5 harg5 arg6 harg6 hc0 x0 x1 xo2 xo3 xo4 = tile2 x1 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [pb_two (n := Scf.trips (0#32) (Scalar.addi 0#32 2#32) 1#32) (hn := trips_two)]
  dsimp only
  rw [View.canon_cons_unit_zero hz3]
  unfold tile2
  simp only [readAt_unread, View.ld_unit_zero (S := S1x1x128) hz3] <;> rfl

theorem out_B_3 (hc0 : ¬cond0_0 i) (x0 : Vec F S4096x512 .f32) (x1 : Vec F S4096x1 .i32)
    (xo2 xo3 : Vec F S1x1x128 .f32) (xo4 : Vec F S1x128x512 .f32) :
    out0_B_3 c i arg2 harg2 arg3 harg3 arg4 harg4 arg5 harg5 arg6 harg6 hc0 x0 x1 xo2 xo3 xo4 = tile3 x0 x1 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [pb_two (n := Scf.trips (0#32) (Scalar.addi 0#32 2#32) 1#32) (hn := trips_two)]
  dsimp only
  rw [View.canon_cons_unit_zero hz3]
  unfold tile3
  simp only [readAt_unread, View.ld_unit_zero (S := S1x1x128) hz3] <;> rfl

theorem out_B_4 (hc0 : ¬cond0_0 i) (x0 : Vec F S4096x512 .f32) (x1 : Vec F S4096x1 .i32)
    (xo2 xo3 : Vec F S1x1x128 .f32) (xo4 : Vec F S1x128x512 .f32) :
    out0_B_4 c i arg2 harg2 arg3 harg3 arg4 harg4 arg5 harg5 arg6 harg6 hc0 x0 x1 xo2 xo3 xo4 = tile4 x0 x1 xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [pb_two (n := Scf.trips (0#32) (Scalar.addi 0#32 2#32) 1#32) (hn := trips_two)]
  dsimp only
  rw [View.canon_cons_unit_zero hz3]
  unfold tile4
  simp only [readAt_unread, View.ld_unit_zero (S := S1x128x512) hz3] <;> rfl

/-- The first point of a chunk: each accumulator is the tile's update of the zero block the point first stores. -/
theorem out_A_2 (hc0 : cond0_0 i) (x0 : Vec F S4096x512 .f32) (x1 : Vec F S4096x1 .i32) :
    out0_A_2 c i arg2 harg2 arg3 harg3 arg4 harg4 arg5 harg5 arg6 harg6 hc0 x0 x1 = tile2 x1 (k0_pay1 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [pb_two (n := Scf.trips (0#32) (Scalar.addi 0#32 2#32) 1#32) (hn := trips_two)]
  dsimp only
  rw [List.cons_append, View.canon_cons_unit_zero hz3]
  unfold tile2
  simp only [readAt_unread, readAt_whole_writes_cons (S := S1x1x128) _ hz3] <;> rfl

theorem out_A_3 (hc0 : cond0_0 i) (x0 : Vec F S4096x512 .f32) (x1 : Vec F S4096x1 .i32) :
    out0_A_3 c i arg2 harg2 arg3 harg3 arg4 harg4 arg5 harg5 arg6 harg6 hc0 x0 x1 = tile3 x0 x1 (k0_pay2 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [pb_two (n := Scf.trips (0#32) (Scalar.addi 0#32 2#32) 1#32) (hn := trips_two)]
  dsimp only
  rw [List.cons_append, View.canon_cons_unit_zero hz3]
  unfold tile3
  simp only [readAt_unread, readAt_whole_writes_cons (S := S1x1x128) _ hz3] <;> rfl

theorem out_A_4 (hc0 : cond0_0 i) (x0 : Vec F S4096x512 .f32) (x1 : Vec F S4096x1 .i32) :
    out0_A_4 c i arg2 harg2 arg3 harg3 arg4 harg4 arg5 harg5 arg6 harg6 hc0 x0 x1 = tile4 x0 x1 (k0_pay3 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [pb_two (n := Scf.trips (0#32) (Scalar.addi 0#32 2#32) 1#32) (hn := trips_two)]
  dsimp only
  rw [List.cons_append, View.canon_cons_unit_zero hz3]
  unfold tile4
  simp only [readAt_unread, readAt_whole_writes_cons (S := S1x128x512) _ hz3] <;> rfl

end cases

end Cert.SegVar.Body

end
-- ==== Proof.Payload.lean ====
/-
  The arithmetic of one half-tile (2048 rows), read at an index over the extended reals.

  For the half-tile's label column `lab` (already clamped) and its feature block `x`, and the previous contents `acc` of
  an accumulator:
    counts   at class q        : acc + the number of rows r with lab r = q                  (a lane-wise sum of the one-hot)
    sq       at class q        : acc + sum over rows r with lab r = q of sum_d x(r,d)^2      (one-hot times the row's squared norm)
    sums     at class q, col d : acc + sum over rows r with lab r = q of x(r,d)              (one-hot^T x, a contraction over rows)
  The one-hot is the comparison of the broadcast label with the lane's number, widened to an integer and converted to a
  float: 1 or 0. A change of float format is the identity over the extended reals.
-/
import proofs.«419640_j9388798509066_3_alg».proof.Proof.Gen.KernelIdeal.Skeleton
import proofs.«419640_j9388798509066_3_alg».proof.Proof.Spec
import Idealize.ShloMosaic.Lib.Pipeline.Value
import Idealize.ShloMosaic.Lib.ValueLayout

noncomputable section

namespace Cert.SegVar.Payload

open Idealize.ShloMosaic Idealize.ShloMosaic.ValueIdx Cert.KernelIdeal Cert.KernelIdeal.Gen Cert.SegVar

/-- The lane-number grid the body builds once: entry (r, q) is q. -/
abbrev lanes : IVec S2048x128 32 := iota .tc S2048x128 32 [1] iota_S2048x128_d1_w32

/-- The zero blocks the first point of a chunk stores. -/
theorem zero2_apply (j : S1x1x128.Idx) : k0_pay1 (F := Ideal) j = 0 := Ideal.ofBits_zero_f32
theorem zero3_apply (j : S1x1x128.Idx) : k0_pay2 (F := Ideal) j = 0 := Ideal.ofBits_zero_f32
theorem zero4_apply (j : S1x128x512.Idx) : k0_pay3 (F := Ideal) j = 0 := Ideal.ofBits_zero_f32

/-- A column [a, 1] broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one-hot entry: the comparison bit widened and read as a signed integer is 1 or 0. -/
theorem onehot_word (l : BitVec 32) (q : ℕ) :
    FloatOps.sitofp (F := Ideal) .f32 ((IntOp.cmpi .eq l (BitVec.ofNat 32 q)).setWidth 32) = hitW l q := by
  unfold hitW
  by_cases h : l = BitVec.ofNat 32 q
  · rw [if_pos h]; subst h
    have : IntOp.cmpi .eq (BitVec.ofNat 32 q) (BitVec.ofNat 32 q) = 1#1 := by simp [IntOp.cmpi]
    rw [this]
    show (((BitVec.setWidth 32 1#1).toInt : ℝ) : EReal) = 1
    have : (BitVec.setWidth 32 1#1).toInt = 1 := by decide
    rw [this]; simp
  · rw [if_neg h]
    have hb : (l == BitVec.ofNat 32 q) = false := beq_eq_false_iff_ne.mpr h
    have : IntOp.cmpi .eq l (BitVec.ofNat 32 q) = 0#1 := by
      show BitVec.ofBool (l == BitVec.ofNat 32 q) = 0#1
      rw [hb]; rfl
    rw [this]
    show (((BitVec.setWidth 32 0#1).toInt : ℝ) : EReal) = 0
    have : (BitVec.setWidth 32 0#1).toInt = 0 := by decide
    rw [this]; simp

/-- A lane sum over the rows of a [2048, 128] block, read at lane q. -/
theorem rowsum_apply (src : FVec Ideal S2048x128 .f32) (hφ : FKind.Formats .f32)
    (hacc : (0x00000000#32 : BitVec 32) = FKind.add.neutral .f32 hφ) (q : Fin 128) :
    multiReduction .add [0] S128 src 0x00000000#32 reduces_S2048x128_S128 hφ hacc (ix1 q) = ∑ r : Fin 2048, src (ix2 r q) := by
  refine (Ideal.multiReduction_add_single src _ reduces_S2048x128_S128 hφ hacc (ix1 q)).trans ?_
  show ∑ r : Fin 2048, src (reduces_S2048x128_S128.lift (ix1 q) r) = _
  refine Finset.sum_congr rfl fun r _ => congrArg src ?_
  funext a
  match a with
  | ⟨0, _⟩ => rfl
  | ⟨1, _⟩ => rfl

/-- A row sum over the columns of a [2048, 512] block, read at row r. -/
theorem colsum_apply (src : FVec Ideal S2048x512 .f32) (hφ : FKind.Formats .f32)
    (hacc : (0x00000000#32 : BitVec 32) = FKind.add.neutral .f32 hφ) (r : Fin 2048) :
    multiReduction .add [1] S2048 src 0x00000000#32 reduces_S2048x512_S2048 hφ hacc (ix1 r) = ∑ d : Fin 512, src (ix2 r d) := by
  refine (Ideal.multiReduction_add_single src _ reduces_S2048x512_S2048 hφ hacc (ix1 r)).trans ?_
  show ∑ d : Fin 512, src (reduces_S2048x512_S2048.lift (ix1 r) d) = _
  refine Finset.sum_congr rfl fun d _ => congrArg src ?_
  funext a
  match a with
  | ⟨0, _⟩ => rfl
  | ⟨1, _⟩ => rfl

/-- The one-hot block at (r, q): 1 when row r's label word is the lane number q, else 0. -/
theorem onehot_apply (lab : Vec Ideal S2048x1 .i32) (r : Fin 2048) (q : Fin 128) :
    k0_pay7 (F := Ideal) lanes lab (ix2 r q) = hitW (lab (ix2 r 0)) q.val := by
  unfold k0_pay7 k0_pay6
  rw [sitofp_apply, extui_apply]
  show FloatOps.sitofp (F := Ideal) .f32 ((IntOp.cmpi .eq
      (broadcastTo S2048x128 (shapeCast S2048x1 lab shapeCasts_S2048x1_S2048x1) broadcasts_S2048x1_S2048x128 (ix2 r q))
      (lanes (ix2 r q))).setWidth 32) = _
  have hl : lanes (ix2 r q) = BitVec.ofNat 32 q.val :=
    iota_single_apply .tc S2048x128 32 1 iota_S2048x128_d1_w32 (ix2 r q)
  rw [broadcastTo_a1_ab_apply, shapeCast_self, hl]
  exact onehot_word _ _

/-- counts: the accumulator plus the half-tile's number of rows of class q. -/
theorem counts_apply (lab : Vec Ideal S2048x1 .i32) (acc : Vec Ideal S1x1x128 .f32) (q : Fin 128) :
    k0_pay9 (F := Ideal) lanes lab acc (ix3 0 0 q) = acc (ix3 0 0 q) + ∑ r : Fin 2048, hitW (lab (ix2 r 0)) q.val := by
  unfold k0_pay9
  rw [shapeCast_ab_1ab_apply, addf_apply, shapeCast_1ab_ab_apply, shapeCast_a_1a_apply]
  refine congrArg (acc (ix3 0 0 q) + ·) ?_
  refine (rowsum_apply _ _ _ q).trans ?_
  exact Finset.sum_congr rfl fun r _ => onehot_apply lab r q

/-- squared norms: the accumulator plus the squared norms of the half-tile's rows of class q. -/
theorem sq_apply (x : Vec Ideal S2048x512 .f32) (lab : Vec Ideal S2048x1 .i32) (acc : Vec Ideal S1x1x128 .f32) (q : Fin 128) :
    k0_pay4 (F := Ideal) (k0_pay10 (F := Ideal) lanes x lab acc) (ix3 0 0 q)
      = acc (ix3 0 0 q) + ∑ r : Fin 2048, hitW (lab (ix2 r 0)) q.val * ∑ d : Fin 512, x (ix2 r d) * x (ix2 r d) := by
  unfold k0_pay4 k0_pay10
  rw [shapeCast_ab_1ab_apply, addf_apply, shapeCast_1ab_ab_apply, shapeCast_a_1a_apply]
  refine congrArg (acc (ix3 0 0 q) + ·) ?_
  refine (rowsum_apply _ _ _ q).trans ?_
  refine Finset.sum_congr rfl fun r _ => ?_
  rw [mulf_apply, onehot_apply, broadcastTo_a1_ab_apply, shapeCast_a_a1_apply]
  refine congrArg (hitW (lab (ix2 r 0)) q.val * ·) ?_
  exact colsum_apply _ _ _ r

/-- The left operand's index on its contracted axis 0 is the contraction position's coordinate. -/
theorem lhs_dot_S2048x128_S2048x512_S128x512_0_0_1_1_n_n_0 (j : S128x512.Idx)
    (k : dot_S2048x128_S2048x512_S128x512_0_0_1_1_n_n.contr.Idx) :
    (dot_S2048x128_S2048x512_S128x512_0_0_1_1_n_n.lhsIdx j k 0).val = (k ⟨0, by decide⟩).val :=
  dot_S2048x128_S2048x512_S128x512_0_0_1_1_n_n.lhsIdx_val_of_single rfl j k

/-- The left operand's index on its kept axis 1 is the result's row coordinate. -/
theorem lhs_dot_S2048x128_S2048x512_S128x512_0_0_1_1_n_n_1 (j : S128x512.Idx)
    (k : dot_S2048x128_S2048x512_S128x512_0_0_1_1_n_n.contr.Idx) :
    (dot_S2048x128_S2048x512_S128x512_0_0_1_1_n_n.lhsIdx j k 1).val = (j 0).val := by
  unfold DotDims.lhsIdx
  rw [dif_neg (show ¬(1 : Fin S2048x128.rank) ∈ dot_S2048x128_S2048x512_S128x512_0_0_1_1_n_n.lhsBatch by decide),
    dif_pos (show (1 : Fin S2048x128.rank) ∈ dot_S2048x128_S2048x512_S128x512_0_0_1_1_n_n.lhsNonContracting by decide)]
  rfl

/-- The right operand's index on its contracted axis 0 is the contraction position's coordinate. -/
theorem rhs_dot_S2048x128_S2048x512_S128x512_0_0_1_1_n_n_0 (j : S128x512.Idx)
    (k : dot_S2048x128_S2048x512_S128x512_0_0_1_1_n_n.contr.Idx) :
    (dot_S2048x128_S2048x512_S128x512_0_0_1_1_n_n.rhsIdx j k 0).val = (k ⟨0, by decide⟩).val :=
  dot_S2048x128_S2048x512_S128x512_0_0_1_1_n_n.rhsIdx_val_of_single rfl j k

/-- The right operand's index on its kept axis 1 is the result's column coordinate. -/
theorem rhs_dot_S2048x128_S2048x512_S128x512_0_0_1_1_n_n_1 (j : S128x512.Idx)
    (k : dot_S2048x128_S2048x512_S128x512_0_0_1_1_n_n.contr.Idx) :
    (dot_S2048x128_S2048x512_S128x512_0_0_1_1_n_n.rhsIdx j k 1).val = (j 1).val := by
  unfold DotDims.rhsIdx
  rw [dif_neg (show ¬(1 : Fin S2048x512.rank) ∈ dot_S2048x128_S2048x512_S128x512_0_0_1_1_n_n.rhsBatch by decide),
    dif_pos (show (1 : Fin S2048x512.rank) ∈ dot_S2048x128_S2048x512_S128x512_0_0_1_1_n_n.rhsNonContracting by decide)]
  rfl

/-- The contraction of the one-hot block with the feature block over the rows, read at (q, d). -/
theorem matmul_rows_apply (A : FVec Ideal S2048x128 .bf16) (B : FVec Ideal S2048x512 .bf16) (q : Fin 128) (d : Fin 512) :
    FloatOps.matmul dot_S2048x128_S2048x512_S128x512_0_0_1_1_n_n none A B (constant S128x512 .f32 0x00000000#32) (ix2 q d)
      = ∑ r : Fin 2048, A (ix2 r q) * B (ix2 r d) := by
  rw [Ideal.matmul_constant_zero_apply,
    ← Equiv.sum_comp (contrEquiv1 dot_S2048x128_S2048x512_S128x512_0_0_1_1_n_n 2048 rfl rfl).symm]
  refine Finset.sum_congr rfl fun r _ => ?_
  have hk := contrEquiv1_symm_val dot_S2048x128_S2048x512_S128x512_0_0_1_1_n_n 2048 rfl rfl r
  have hl : dot_S2048x128_S2048x512_S128x512_0_0_1_1_n_n.lhsIdx (ix2 q d)
      ((contrEquiv1 dot_S2048x128_S2048x512_S128x512_0_0_1_1_n_n 2048 rfl rfl).symm r) = ix2 r q := by
    funext ax; apply Fin.ext
    match ax with
    | ⟨0, _⟩ => exact (lhs_dot_S2048x128_S2048x512_S128x512_0_0_1_1_n_n_0 _ _).trans hk
    | ⟨1, _⟩ => exact lhs_dot_S2048x128_S2048x512_S128x512_0_0_1_1_n_n_1 _ _
  have hr : dot_S2048x128_S2048x512_S128x512_0_0_1_1_n_n.rhsIdx (ix2 q d)
      ((contrEquiv1 dot_S2048x128_S2048x512_S128x512_0_0_1_1_n_n 2048 rfl rfl).symm r) = ix2 r d := by
    funext ax; apply Fin.ext
    match ax with
    | ⟨0, _⟩ => exact (rhs_dot_S2048x128_S2048x512_S128x512_0_0_1_1_n_n_0 _ _).trans hk
    | ⟨1, _⟩ => exact rhs_dot_S2048x128_S2048x512_S128x512_0_0_1_1_n_n_1 _ _
  rw [hl, hr]

/-- feature sums: the accumulator plus the half-tile's rows of class q, column d. -/
theorem sums_apply (x : Vec Ideal S2048x512 .f32) (lab : Vec Ideal S2048x1 .i32) (acc : Vec Ideal S1x128x512 .f32) (q : Fin 128) (d : Fin 512) :
    k0_pay5 (F := Ideal) (k0_pay8 (F := Ideal) lanes x lab) acc (ix3 0 q d)
      = acc (ix3 0 q d) + ∑ r : Fin 2048, hitW (lab (ix2 r 0)) q.val * x (ix2 r d) := by
  unfold k0_pay5 k0_pay8
  rw [shapeCast_ab_1ab_apply, addf_apply, shapeCast_1ab_ab_apply]
  refine congrArg (acc (ix3 0 q d) + ·) ?_
  refine (matmul_rows_apply _ _ q d).trans ?_
  refine Finset.sum_congr rfl fun r _ => ?_
  rw [truncf_apply, truncf_apply]
  exact congrArg (· * x (ix2 r d)) (onehot_apply lab r q)

end Cert.SegVar.Payload

end
-- ==== Proof.Sums.lean ====
/-
  Sums over runs of consecutive rows.

  The rows of the input are numbered 0 .. 131071. The kernel visits them in order: chunk by chunk (65536 rows), tile by
  tile (4096 rows), half by half (2048 rows), adding each run's contribution to an accumulator. Addition on the extended
  reals is associative and commutative, so an accumulator that has absorbed adjacent runs holds the sum over their union;
  `psum g a b` is the sum of `g` over the `b` rows starting at row `a`.
-/
import Mathlib.Algebra.BigOperators.Fin
import Mathlib.Algebra.BigOperators.Intervals
import Mathlib.Data.EReal.Basic

noncomputable section

namespace Cert.SegVar

/-- The sum of `g` over the `b` consecutive rows from row `a`. -/
def psum (g : ℕ → EReal) (a b : ℕ) : EReal := ∑ n ∈ Finset.range b, g (a + n)

theorem psum_zero (g : ℕ → EReal) (a : ℕ) : psum g a 0 = 0 := by
  unfold psum; simp

/-- Adjacent runs join. -/
theorem psum_add (g : ℕ → EReal) (a b b' : ℕ) : psum g a (b + b') = psum g a b + psum g (a + b) b' := by
  unfold psum
  rw [Finset.sum_range_add]
  simp only [Nat.add_assoc]

/-- A sum over `Fin b` of `g` at the rows `a + r` is the run's sum. -/
theorem psum_fin (g : ℕ → EReal) (a b : ℕ) : ∑ r : Fin b, g (a + r.val) = psum g a b := by
  unfold psum
  exact Fin.sum_univ_eq_sum_range (fun n => g (a + n)) b

/-- A tile's 4096 rows are its two halves of 2048. -/
theorem sum_fin_halves (f : Fin 4096 → EReal) :
    ∑ ρ : Fin 4096, f ρ = ∑ r : Fin 2048, f ⟨r.val, by omega⟩ + ∑ r : Fin 2048, f ⟨2048 + r.val, by omega⟩ :=
  Fin.sum_univ_add (a := 2048) (b := 2048) (f : Fin (2048 + 2048) → EReal)

/-- The first tile of a chunk (point t with t ≡ 0 mod 16) starts the chunk's run: its 4096 rows begin at the chunk's start. -/
theorem psum_first (g : ℕ → EReal) (t : ℕ) (h : t % 16 = 0) :
    psum g (4096 * t) 4096 = psum g (65536 * (t / 16)) (4096 * (t % 16 + 1)) := by
  rw [show 4096 * t = 65536 * (t / 16) by omega, show 4096 * (t % 16 + 1) = 4096 by omega]

/-- A later tile of a chunk (point t with t ≢ 0 mod 16) extends the chunk's run by its 4096 rows. -/
theorem psum_next (g : ℕ → EReal) (t : ℕ) (h : ¬t % 16 = 0) :
    psum g (65536 * ((t - 1) / 16)) (4096 * ((t - 1) % 16 + 1)) + psum g (4096 * t) 4096
      = psum g (65536 * (t / 16)) (4096 * (t % 16 + 1)) := by
  rw [show (t - 1) / 16 = t / 16 by omega, show 4096 * ((t - 1) % 16 + 1) = 4096 * (t % 16) by omega,
    show 4096 * t = 65536 * (t / 16) + 4096 * (t % 16) by omega, show 4096 * (t % 16 + 1) = 4096 * (t % 16) + 4096 by omega,
    psum_add]

/-- The two chunks' runs are all the rows. -/
theorem psum_chunks (g : ℕ → EReal) : psum g 0 65536 + psum g 65536 65536 = psum g 0 131072 := by
  rw [show (131072 : ℕ) = 65536 + 65536 from rfl, psum_add, Nat.zero_add]

end Cert.SegVar

end
-- ==== Proof.TileAt.lean ====
/-
  One tile's update of each accumulator, read at an index over the extended reals.

  A tile is 4096 rows; its update is the second half's step over the first half's, so at class q it adds the sum over all
  4096 rows of the row's contribution: the one-hot of the row's (clamped) label at q, times 1 for the counts, times the
  row's squared norm for the squared norms, times the row's entry in column d for the feature sums.
-/
import proofs.«419640_j9388798509066_3_alg».proof.Proof.LoopPieces
import proofs.«419640_j9388798509066_3_alg».proof.Proof.Payload
import proofs.«419640_j9388798509066_3_alg».proof.Proof.Sums

set_option maxRecDepth 16384

noncomputable section

namespace Cert.SegVar.Body

open Idealize.ShloMosaic Idealize.ShloMosaic.ValueIdx Cert.KernelIdeal Cert.KernelIdeal.Gen Cert.SegVar

/-- Half 0 of a tile is its rows [0, 2048), half 1 its rows [2048, 4096). -/
theorem labHalf_h0 (x1 : Vec Ideal S4096x1 .i32) (r : Fin 2048) :
    labHalf (F := Ideal) h0 x1 (ix2 r 0) = x1 (ix2 ⟨r.val, by omega⟩ 0) := by
  show x1 _ = x1 _
  congr 1
  funext a
  apply Fin.ext
  match a with
  | ⟨0, _⟩ => show k0_off2 h0 0 + 1 * r.val = r.val; rw [show k0_off2 h0 0 = 0 from rfl]; omega
  | ⟨1, _⟩ => rfl

theorem labHalf_h1 (x1 : Vec Ideal S4096x1 .i32) (r : Fin 2048) :
    labHalf (F := Ideal) h1 x1 (ix2 r 0) = x1 (ix2 ⟨2048 + r.val, by omega⟩ 0) := by
  show x1 _ = x1 _
  congr 1
  funext a
  apply Fin.ext
  match a with
  | ⟨0, _⟩ => show k0_off2 h1 0 + 1 * r.val = 2048 + r.val; rw [show k0_off2 h1 0 = 2048 from rfl]; omega
  | ⟨1, _⟩ => rfl

theorem featHalf_h0 (x0 : Vec Ideal S4096x512 .f32) (r : Fin 2048) (d : Fin 512) :
    featHalf (F := Ideal) h0 x0 (ix2 r d) = x0 (ix2 ⟨r.val, by omega⟩ d) := by
  show x0 _ = x0 _
  congr 1
  funext a
  apply Fin.ext
  match a with
  | ⟨0, _⟩ => show k0_off1 h0 0 + 1 * r.val = r.val; rw [show k0_off1 h0 0 = 0 from rfl]; omega
  | ⟨1, _⟩ => show k0_off1 h0 1 + 1 * d.val = d.val; rw [show k0_off1 h0 1 = 0 from rfl]; omega

theorem featHalf_h1 (x0 : Vec Ideal S4096x512 .f32) (r : Fin 2048) (d : Fin 512) :
    featHalf (F := Ideal) h1 x0 (ix2 r d) = x0 (ix2 ⟨2048 + r.val, by omega⟩ d) := by
  show x0 _ = x0 _
  congr 1
  funext a
  apply Fin.ext
  match a with
  | ⟨0, _⟩ => show k0_off1 h1 0 + 1 * r.val = 2048 + r.val; rw [show k0_off1 h1 0 = 2048 from rfl]; omega
  | ⟨1, _⟩ => show k0_off1 h1 1 + 1 * d.val = d.val; rw [show k0_off1 h1 1 = 0 from rfl]; omega

/-- Counts: the tile adds, at class q, the number of its rows of class q. -/
theorem tile2_apply (x1 : Vec Ideal S4096x1 .i32) (acc : Vec Ideal S1x1x128 .f32) (q : Fin 128) :
    tile2 (F := Ideal) x1 acc (ix3 0 0 q) = acc (ix3 0 0 q) + ∑ ρ : Fin 4096, hitW (x1 (ix2 ρ 0)) q.val := by
  unfold tile2
  rw [Payload.counts_apply, Payload.counts_apply, sum_fin_halves, add_assoc]
  congr 1; congr 1
  · exact Finset.sum_congr rfl fun r _ => by rw [labHalf_h0]
  · exact Finset.sum_congr rfl fun r _ => by rw [labHalf_h1]

/-- Squared norms: the tile adds, at class q, the squared norms of its rows of class q. -/
theorem tile3_apply (x0 : Vec Ideal S4096x512 .f32) (x1 : Vec Ideal S4096x1 .i32) (acc : Vec Ideal S1x1x128 .f32) (q : Fin 128) :
    tile3 (F := Ideal) x0 x1 acc (ix3 0 0 q)
      = acc (ix3 0 0 q) + ∑ ρ : Fin 4096, hitW (x1 (ix2 ρ 0)) q.val * ∑ d : Fin 512, x0 (ix2 ρ d) * x0 (ix2 ρ d) := by
  unfold tile3
  rw [Payload.sq_apply, Payload.sq_apply, sum_fin_halves, add_assoc]
  congr 1; congr 1
  · exact Finset.sum_congr rfl fun r _ => by
      rw [labHalf_h0]; congr 1; exact Finset.sum_congr rfl fun d _ => by rw [featHalf_h0]
  · exact Finset.sum_congr rfl fun r _ => by
      rw [labHalf_h1]; congr 1; exact Finset.sum_congr rfl fun d _ => by rw [featHalf_h1]

/-- Feature sums: the tile adds, at class q and column d, the entries in column d of its rows of class q. -/
theorem tile4_apply (x0 : Vec Ideal S4096x512 .f32) (x1 : Vec Ideal S4096x1 .i32) (acc : Vec Ideal S1x128x512 .f32)
    (q : Fin 128) (d : Fin 512) :
    tile4 (F := Ideal) x0 x1 acc (ix3 0 q d)
      = acc (ix3 0 q d) + ∑ ρ : Fin 4096, hitW (x1 (ix2 ρ 0)) q.val * x0 (ix2 ρ d) := by
  unfold tile4
  rw [Payload.sums_apply, Payload.sums_apply, sum_fin_halves, add_assoc]
  congr 1; congr 1
  · exact Finset.sum_congr rfl fun r _ => by rw [labHalf_h0, featHalf_h0]
  · exact Finset.sum_congr rfl fun r _ => by rw [labHalf_h1, featHalf_h1]

end Cert.SegVar.Body

end
-- ==== Proof.Grid.lean ====
/-
  The grid: what the three accumulators hold after each point, and what the three output arrays end holding.

  The grid has 2 chunks of 16 points; point t (in row-major order) streams rows [4096 t, 4096 t + 4096), so chunk p covers
  rows [65536 p, 65536 p + 65536). The accumulators are reset at the first point of a chunk and written back after its last
  point. So after point t of chunk p = t / 16 an accumulator holds, at class q, the sum of the row contributions over rows
  [65536 p, 4096 (t + 1)), and output block p ends holding the sum over the whole chunk.
-/
import proofs.«419640_j9388798509066_3_alg».proof.Proof.TileAt
import Idealize.ShloMosaic.Lib.Pipeline.Value

set_option maxRecDepth 16384

noncomputable section

namespace Cert.SegVar.Grid

open Idealize.ShloMosaic Idealize.ShloMosaic.ValueIdx Idealize.ShloMosaic.TcCoe Idealize.SL.Sem
open Idealize.ShloMosaic.Pipeline (Dat)
open Cert.KernelIdeal Cert.KernelIdeal.Gen Cert.SegVar Cert.SegVar.Body

variable (m : (ℓ : Loc nD τ sig) → Buf (Elt Ideal) ℓ)

/-! ## Rows by number, as the region finds them -/

/-- The features and the clamped label column the region is entered with. -/
abbrev featIn (c : Dev nD) : FVec Ideal S131072x512 .f32 := V m c main_arg0
abbrev labIn (c : Dev nD) : IVec S131072x1 32 := V m c main_v1

/-- Row n's clamped label word and its entry in column d (anything past the last row). -/
def labN (c : Dev nD) (n : ℕ) : BitVec 32 := if h : n < 131072 then labIn m c (ix2 ⟨n, h⟩ 0) else 0#32
def featN (c : Dev nD) (n : ℕ) (d : Fin 512) : EReal := if h : n < 131072 then featIn m c (ix2 ⟨n, h⟩ d) else 0

/-- Row n's contribution to class q: to the count, to the squared-norm sum, to the feature sum in column d. -/
def gCnt (c : Dev nD) (q : ℕ) (n : ℕ) : EReal := hitW (labN m c n) q
def gSq (c : Dev nD) (q : ℕ) (n : ℕ) : EReal := hitW (labN m c n) q * ∑ d : Fin 512, featN m c n d * featN m c n d
def gSum (c : Dev nD) (q : ℕ) (d : Fin 512) (n : ℕ) : EReal := hitW (labN m c n) q * featN m c n d

/-- The input blocks at a point, at their literal types. -/
abbrev xblk (c : Dev nD) (t : Fin cfg0.N) : Vec Ideal S4096x512 .f32 := iblk m c 0 t
abbrev lblk (c : Dev nD) (t : Fin cfg0.N) : Vec Ideal S4096x1 .i32 := iblk m c 1 t

/-- Both inputs' block at point t is block t along the rows. -/
theorem idx_in : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Row ρ of the label block at point t is row 4096 t + ρ. -/
theorem lblk_apply (c : Dev nD) (t : Fin cfg0.N) (ρ : Fin 4096) : lblk m c t (ix2 ρ 0) = labN m c (4096 * t.val + ρ.val) := by
  have hN : t.val < 32 := lt_of_lt_of_eq t.isLt (show cfg0.N = 32 from N_0)
  have hρ := ρ.isLt
  unfold labN
  rw [dif_pos (by omega)]
  unfold lblk iblk
  rw [View.read_apply]
  show V m c main_v1 _ = V m c main_v1 _
  congr 1
  funext a
  apply Fin.ext
  match a with
  | ⟨0, _⟩ => show win0_1.index t 0 * 4096 + 1 * ρ.val = 4096 * t.val + ρ.val; rw [(idx_in t).2.2.1]; omega
  | ⟨1, _⟩ => show win0_1.index t 1 * 1 + 1 * 0 = 0; rw [(idx_in t).2.2.2]

/-- Entry (ρ, d) of the feature block at point t is row 4096 t + ρ, column d. -/
theorem xblk_apply (c : Dev nD) (t : Fin cfg0.N) (ρ : Fin 4096) (d : Fin 512) :
    xblk m c t (ix2 ρ d) = featN m c (4096 * t.val + ρ.val) d := by
  have hN : t.val < 32 := lt_of_lt_of_eq t.isLt (show cfg0.N = 32 from N_0)
  have hρ := ρ.isLt
  unfold featN
  rw [dif_pos (by omega)]
  unfold xblk iblk
  rw [View.read_apply]
  show V m c main_arg0 _ = V m c main_arg0 _
  congr 1
  funext a
  apply Fin.ext
  match a with
  | ⟨0, _⟩ => show win0_0.index t 0 * 4096 + 1 * ρ.val = 4096 * t.val + ρ.val; rw [(idx_in t).1]; omega
  | ⟨1, _⟩ => show win0_0.index t 1 * 512 + 1 * d.val = d.val; rw [(idx_in t).2.1]; omega

/-! ## One point's update, as a run of rows -/

set_option maxHeartbeats 1000000 in
theorem step2 (c : Dev nD) (t : Fin cfg0.N) (acc : Vec Ideal S1x1x128 .f32) (q : Fin 128)
    (x1 : Vec Ideal S4096x1 .i32) (hx1 : x1 = lblk m c t) :
    tile2 (F := Ideal) x1 acc (ix3 0 0 q) = acc (ix3 0 0 q) + psum (gCnt m c q.val) (4096 * t.val) 4096 := by
  refine (tile2_apply x1 acc q).trans ?_
  congr 1
  rw [← psum_fin]
  exact Finset.sum_congr rfl fun ρ _ => by rw [hx1, lblk_apply m c t ρ]; rfl

set_option maxHeartbeats 1000000 in
theorem step3 (c : Dev nD) (t : Fin cfg0.N) (acc : Vec Ideal S1x1x128 .f32) (q : Fin 128)
    (x0 : Vec Ideal S4096x512 .f32) (hx0 : x0 = xblk m c t) (x1 : Vec Ideal S4096x1 .i32) (hx1 : x1 = lblk m c t) :
    tile3 (F := Ideal) x0 x1 acc (ix3 0 0 q) = acc (ix3 0 0 q) + psum (gSq m c q.val) (4096 * t.val) 4096 := by
  refine (tile3_apply x0 x1 acc q).trans ?_
  congr 1
  rw [← psum_fin]
  exact Finset.sum_congr rfl fun ρ _ => by
    rw [hx1, lblk_apply m c t ρ]; unfold gSq; congr 1
    exact Finset.sum_congr rfl fun d _ => by rw [hx0, xblk_apply m c t ρ d]

set_option maxHeartbeats 1000000 in
theorem step4 (c : Dev nD) (t : Fin cfg0.N) (acc : Vec Ideal S1x128x512 .f32) (q : Fin 128) (d : Fin 512)
    (x0 : Vec Ideal S4096x512 .f32) (hx0 : x0 = xblk m c t) (x1 : Vec Ideal S4096x1 .i32) (hx1 : x1 = lblk m c t) :
    tile4 (F := Ideal) x0 x1 acc (ix3 0 q d) = acc (ix3 0 q d) + psum (gSum m c q.val d) (4096 * t.val) 4096 := by
  refine (tile4_apply x0 x1 acc q d).trans ?_
  congr 1
  rw [← psum_fin]
  exact Finset.sum_congr rfl fun ρ _ => by rw [hx1, hx0, lblk_apply m c t ρ, xblk_apply m c t ρ d]; rfl

/-! ## The accumulators after each point -/

/-- After point n: the chunk's run of rows so far, per class. -/
def acc2 (c : Dev nD) (n : ℕ) : Vec Ideal S1x1x128 .f32 := fun j =>
  psum (gCnt m c (j 2).val) (65536 * (n / 16)) (4096 * (n % 16 + 1))
def acc3 (c : Dev nD) (n : ℕ) : Vec Ideal S1x1x128 .f32 := fun j =>
  psum (gSq m c (j 2).val) (65536 * (n / 16)) (4096 * (n % 16 + 1))
def acc4 (c : Dev nD) (n : ℕ) : Vec Ideal S1x128x512 .f32 := fun j =>
  psum (gSum m c (j 1).val (j 2)) (65536 * (n / 16)) (4096 * (n % 16 + 1))

/-- An index of a [1, 1, 128] block is (0, 0, q); of a [1, 128, 512] block, (0, q, d). -/
theorem exists_ix3_00 (j : S1x1x128.Idx) : ∃ q : Fin 128, j = ix3 (0 : Fin 1) (0 : Fin 1) q :=
  ⟨j 2, funext fun a => by
    match a with
    | ⟨0, _⟩ => exact Fin.eq_zero (j 0)
    | ⟨1, _⟩ => exact Fin.eq_zero (j 1)
    | ⟨2, _⟩ => rfl⟩

theorem exists_ix3_0 (j : S1x128x512.Idx) : ∃ (q : Fin 128) (d : Fin 512), j = ix3 (0 : Fin 1) q d :=
  ⟨j 1, j 2, funext fun a => by
    match a with
    | ⟨0, _⟩ => exact Fin.eq_zero (j 0)
    | ⟨1, _⟩ => rfl
    | ⟨2, _⟩ => rfl⟩

/-- The first point of a chunk: the tile's update of the zero block is the chunk's first 4096 rows. -/
theorem first2 (c : Dev nD) (t : Fin cfg0.N) (h0 : t.val % 16 = 0) :
    tile2 (F := Ideal) (lblk m c t) (k0_pay1 (F := Ideal)) = acc2 m c t.val := by
  funext j
  obtain ⟨q, rfl⟩ := exists_ix3_00 j
  refine (step2 m c t _ q (lblk m c t) rfl).trans ?_
  rw [Payload.zero2_apply, zero_add]
  exact psum_first _ _ h0
theorem first3 (c : Dev nD) (t : Fin cfg0.N) (h0 : t.val % 16 = 0) :
    tile3 (F := Ideal) (xblk m c t) (lblk m c t) (k0_pay2 (F := Ideal)) = acc3 m c t.val := by
  funext j
  obtain ⟨q, rfl⟩ := exists_ix3_00 j
  refine (step3 m c t _ q (xblk m c t) rfl (lblk m c t) rfl).trans ?_
  rw [Payload.zero3_apply, zero_add]
  exact psum_first _ _ h0
theorem first4 (c : Dev nD) (t : Fin cfg0.N) (h0 : t.val % 16 = 0) :
    tile4 (F := Ideal) (xblk m c t) (lblk m c t) (k0_pay3 (F := Ideal)) = acc4 m c t.val := by
  funext j
  obtain ⟨q, d, rfl⟩ := exists_ix3_0 j
  refine (step4 m c t _ q d (xblk m c t) rfl (lblk m c t) rfl).trans ?_
  rw [Payload.zero4_apply, zero_add]
  exact psum_first _ _ h0

/-- A later point of a chunk: the tile's update of the run so far is the run extended by 4096 rows. -/
theorem next2 (c : Dev nD) (t : Fin cfg0.N) (h0 : ¬t.val % 16 = 0) :
    tile2 (F := Ideal) (lblk m c t) (acc2 m c (t.val - 1)) = acc2 m c t.val := by
  funext j
  obtain ⟨q, rfl⟩ := exists_ix3_00 j
  refine (step2 m c t _ q (lblk m c t) rfl).trans ?_
  exact psum_next _ _ h0
theorem next3 (c : Dev nD) (t : Fin cfg0.N) (h0 : ¬t.val % 16 = 0) :
    tile3 (F := Ideal) (xblk m c t) (lblk m c t) (acc3 m c (t.val - 1)) = acc3 m c t.val := by
  funext j
  obtain ⟨q, rfl⟩ := exists_ix3_00 j
  refine (step3 m c t _ q (xblk m c t) rfl (lblk m c t) rfl).trans ?_
  exact psum_next _ _ h0
theorem next4 (c : Dev nD) (t : Fin cfg0.N) (h0 : ¬t.val % 16 = 0) :
    tile4 (F := Ideal) (xblk m c t) (lblk m c t) (acc4 m c (t.val - 1)) = acc4 m c t.val := by
  funext j
  obtain ⟨q, d, rfl⟩ := exists_ix3_0 j
  refine (step4 m c t _ q d (xblk m c t) rfl (lblk m c t) rfl).trans ?_
  exact psum_next _ _ h0

/-- A first point of a chunk leaves the chunk's first run in the three accumulators. -/
theorem caseA (c : Dev nD) (t : Fin cfg0.N) (h0 : t.val % 16 = 0) :
    outsAt0 m c t.val t.isLt = (acc2 m c t.val, acc3 m c t.val, acc4 m c t.val) := by
  rw [outsAt0_A m c t h0,
    out_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
    out_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
    out_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)]
  exact congrArg₂ Prod.mk (first2 m c t h0) (congrArg₂ Prod.mk (first3 m c t h0) (first4 m c t h0))

/-- A later point extends the run the point before left. -/
theorem caseB (c : Dev nD) (t : Fin cfg0.N) (h0 : ¬t.val % 16 = 0)
    (ih : outsAt0 m c (t.val - 1) (Nat.lt_of_le_of_lt (Nat.sub_le _ _) t.isLt)
      = (acc2 m c (t.val - 1), acc3 m c (t.val - 1), acc4 m c (t.val - 1))) :
    outsAt0 m c t.val t.isLt = (acc2 m c t.val, acc3 m c t.val, acc4 m c t.val) := by
  rw [outsAt0_B m c t h0, ih]
  dsimp only
  rw [out_B_2 c (grid0.coords t) (ms0_0 t) (hs0_0 t) (ms0_1 t) (hs0_1 t) (ms0_2 t) (hs0_2 t) (ms0_3 t) (hs0_3 t) (ms0_4 t) (hs0_4 t) (fun hh => h0 ((hcond0_0 t).mp hh)) (iblk m c 0 t) (iblk m c 1 t)
      (acc2 m c (t.val - 1)) (acc3 m c (t.val - 1)) (acc4 m c (t.val - 1)),
    out_B_3 c (grid0.coords t) (ms0_0 t) (hs0_0 t) (ms0_1 t) (hs0_1 t) (ms0_2 t) (hs0_2 t) (ms0_3 t) (hs0_3 t) (ms0_4 t) (hs0_4 t) (fun hh => h0 ((hcond0_0 t).mp hh)) (iblk m c 0 t) (iblk m c 1 t)
      (acc2 m c (t.val - 1)) (acc3 m c (t.val - 1)) (acc4 m c (t.val - 1)),
    out_B_4 c (grid0.coords t) (ms0_0 t) (hs0_0 t) (ms0_1 t) (hs0_1 t) (ms0_2 t) (hs0_2 t) (ms0_3 t) (hs0_3 t) (ms0_4 t) (hs0_4 t) (fun hh => h0 ((hcond0_0 t).mp hh)) (iblk m c 0 t) (iblk m c 1 t)
      (acc2 m c (t.val - 1)) (acc3 m c (t.val - 1)) (acc4 m c (t.val - 1))]
  exact congrArg₂ Prod.mk (next2 m c t h0) (congrArg₂ Prod.mk (next3 m c t h0) (next4 m c t h0))

/-- What the accumulators hold after every point: by induction on the point, each point in its case. -/
theorem outsAt_eq (c : Dev nD) : ∀ (n : ℕ) (h : n < cfg0.N), outsAt0 m c n h = (acc2 m c n, acc3 m c n, acc4 m c n)
  | 0, h => caseA m c ⟨0, h⟩ rfl
  | n + 1, h => by
    by_cases h0 : (n + 1) % 16 = 0
    · exact caseA m c ⟨n + 1, h⟩ h0
    · exact caseB m c ⟨n + 1, h⟩ h0 (outsAt_eq c n (Nat.lt_of_succ_lt h))

end Cert.SegVar.Grid

end
-- ==== Proof.Final.lean ====
/-
  The three output arrays after the run.

  Output block p (chunk p) is written back once, after the chunk's last point t = 16 p + 15, when each accumulator holds the
  sum of the row contributions over the chunk's 65536 rows. The two write-backs cover each output array, so array entry
  (p, ·) is the sum over rows [65536 p, 65536 p + 65536).
-/
import proofs.«419640_j9388798509066_3_alg».proof.Proof.Grid

set_option maxRecDepth 16384

noncomputable section

namespace Cert.SegVar.Grid

open Idealize.ShloMosaic Idealize.ShloMosaic.ValueIdx Idealize.ShloMosaic.TcCoe Idealize.SL.Sem
open Idealize.ShloMosaic.Pipeline (Dat)
open Cert.KernelIdeal Cert.KernelIdeal.Gen Cert.SegVar Cert.SegVar.Body

variable (m : (ℓ : Loc nD τ sig) → Buf (Elt Ideal) ℓ)

/-- Runs with equal contributions, starts and lengths have equal sums. -/
theorem psum_congr3 {g g' : ℕ → EReal} {a a' b b' : ℕ} (hg : g = g') (ha : a = a') (hb : b = b') :
    psum g a b = psum g' a' b' := by subst hg; subst ha; subst hb; rfl

/-- The whole-chunk sums: entry (p, ·, q) is the sum of row contributions to class q over chunk p's rows. -/
def cntArr (c : Dev nD) : FVec Ideal S2x1x128 .f32 := fun i => psum (gCnt m c (i 2).val) (65536 * (i 0).val) 65536
def sqArr (c : Dev nD) : FVec Ideal S2x1x128 .f32 := fun i => psum (gSq m c (i 2).val) (65536 * (i 0).val) 65536
def sumArr (c : Dev nD) : FVec Ideal S2x128x512 .f32 := fun i => psum (gSum m c (i 1).val (i 2)) (65536 * (i 0).val) 65536

/-- The last point of chunk p, after which the chunk's blocks are written back. -/
def lastPt (p : Fin 2) : Fin cfg0.N := ⟨16 * p.val + 15, by have := p.isLt; rw [show cfg0.N = 32 from N_0]; omega⟩

/-- Each output's block at point t is block t / 16 along the chunks, block 0 along the other axes. -/
theorem idx_out : ∀ t : Fin cfg0.N, win0_2.index t 0 = t.val / 16 ∧ win0_2.index t 1 = 0 ∧ win0_2.index t 2 = 0
    ∧ win0_3.index t 0 = t.val / 16 ∧ win0_3.index t 1 = 0 ∧ win0_3.index t 2 = 0
    ∧ win0_4.index t 0 = t.val / 16 ∧ win0_4.index t 1 = 0 ∧ win0_4.index t 2 = 0 :=
  (by decide +kernel : ∀ t : Fin grid0.N, win0_2.index t 0 = t.val / 16 ∧ win0_2.index t 1 = 0 ∧ win0_2.index t 2 = 0
    ∧ win0_3.index t 0 = t.val / 16 ∧ win0_3.index t 1 = 0 ∧ win0_3.index t 2 = 0
    ∧ win0_4.index t 0 = t.val / 16 ∧ win0_4.index t 1 = 0 ∧ win0_4.index t 2 = 0)

/-- What a write-back of output 2 writes is block p = t / 16 of the whole-chunk sums: at a write-back point the run so far
    is the chunk's 65536 rows. -/
theorem flushed2_eq (c : Dev nD) (t : Fin cfg0.N) (hf : (cfg0.win 2).flush t = true) :
    (dats m 0 c).flushed 2 t = ((cfg0.win 2).blk t).view.read (Elt Ideal) (cntArr m c) := by
  have hN : t.val < 32 := lt_of_lt_of_eq t.isLt (show cfg0.N = 32 from N_0)
  have h15 : t.val % 16 = 15 := (flush0_2 t).mp hf
  show (cfg0.win 2).cut (grid0.coords t) ((dats m 0 c).after 2 t) = _
  rw [after0_2, outsAt_eq m c t.val t.isLt]
  funext y
  rw [View.read_apply]
  simp only [cast_eq]
  dsimp only [Pipeline.Window.cut]
  unfold acc2 cntArr
  dsimp only
  have hy0 : (y 0).val < 1 := (y 0).isLt
  have e0 : ((((View.whole main_v2_0).slice ((win0 2).rect t)).emb y) 0).val = t.val / 16 := by
    show win0_2.index t 0 * 1 + 1 * (y 0).val = t.val / 16
    rw [(idx_out t).1]; omega
  have e1 : ((((View.whole main_v2_0).slice ((win0 2).rect t)).emb y) 1).val = (y 1).val := by
    show win0_2.index t 1 * 1 + 1 * (y 1).val = (y 1).val
    rw [(idx_out t).2.1]; omega
  have e2 : ((((View.whole main_v2_0).slice ((win0 2).rect t)).emb y) 2).val = (y 2).val := by
    show win0_2.index t 2 * 128 + 1 * (y 2).val = (y 2).val
    rw [(idx_out t).2.2.1]; omega
  exact psum_congr3 (congrArg (gCnt m c) e2.symm) (congrArg (65536 * ·) e0.symm) (by omega)

/-- Output array 2 ends holding the whole-chunk sums: chunk p's block is written back after its last point. -/
theorem final2 (c : Dev nD) : (dats m 0 c).arrAt 2 cfg0.N = cntArr m c :=
  (dats m 0 c).arrAt_eq_of_cover 2 (cntArr m c) (flushed2_eq m c) fun i => by
    have hi0 : (i 0 : Nat) < 2 := (i 0).isLt
    have hi1 : (i 1 : Nat) < 1 := (i 1).isLt
    have hi2 : (i 2 : Nat) < 128 := (i 2).isLt
    have hlast : (lastPt ⟨(i 0 : Nat), hi0⟩).val = 16 * (i 0 : Nat) + 15 := rfl
    refine ⟨lastPt ⟨(i 0 : Nat), hi0⟩, (flush0_2 _).mpr (by rw [hlast]; omega), ?_⟩
    show i ∈ ((View.whole main_v2_0).slice (win0_2.rect (lastPt ⟨(i 0 : Nat), hi0⟩))).set
    rw [View.set_slice_whole, Rect.mem_set_unit]
    intro a
    have hidx := idx_out (lastPt ⟨(i 0 : Nat), hi0⟩)
    rw [hlast] at hidx
    match a with
    | ⟨0, _⟩ =>
      show win0_2.index (lastPt ⟨(i 0 : Nat), hi0⟩) 0 * 1 ≤ (i 0).val ∧ (i 0).val < win0_2.index (lastPt ⟨(i 0 : Nat), hi0⟩) 0 * 1 + 1
      rw [hidx.1]; omega
    | ⟨1, _⟩ =>
      show win0_2.index (lastPt ⟨(i 0 : Nat), hi0⟩) 1 * 1 ≤ (i 1).val ∧ (i 1).val < win0_2.index (lastPt ⟨(i 0 : Nat), hi0⟩) 1 * 1 + 1
      rw [hidx.2.1]; omega
    | ⟨2, _⟩ =>
      show win0_2.index (lastPt ⟨(i 0 : Nat), hi0⟩) 2 * 128 ≤ (i 2).val ∧ (i 2).val < win0_2.index (lastPt ⟨(i 0 : Nat), hi0⟩) 2 * 128 + 128
      rw [hidx.2.2.1]; omega

/-- What a write-back of output 3 writes is block p = t / 16 of the whole-chunk sums: at a write-back point the run so far
    is the chunk's 65536 rows. -/
theorem flushed3_eq (c : Dev nD) (t : Fin cfg0.N) (hf : (cfg0.win 3).flush t = true) :
    (dats m 0 c).flushed 3 t = ((cfg0.win 3).blk t).view.read (Elt Ideal) (sqArr m c) := by
  have hN : t.val < 32 := lt_of_lt_of_eq t.isLt (show cfg0.N = 32 from N_0)
  have h15 : t.val % 16 = 15 := (flush0_3 t).mp hf
  show (cfg0.win 3).cut (grid0.coords t) ((dats m 0 c).after 3 t) = _
  rw [after0_3, outsAt_eq m c t.val t.isLt]
  funext y
  rw [View.read_apply]
  simp only [cast_eq]
  dsimp only [Pipeline.Window.cut]
  unfold acc3 sqArr
  dsimp only
  have hy0 : (y 0).val < 1 := (y 0).isLt
  have e0 : ((((View.whole main_v2_1).slice ((win0 3).rect t)).emb y) 0).val = t.val / 16 := by
    show win0_3.index t 0 * 1 + 1 * (y 0).val = t.val / 16
    rw [(idx_out t).2.2.2.1]; omega
  have e1 : ((((View.whole main_v2_1).slice ((win0 3).rect t)).emb y) 1).val = (y 1).val := by
    show win0_3.index t 1 * 1 + 1 * (y 1).val = (y 1).val
    rw [(idx_out t).2.2.2.2.1]; omega
  have e2 : ((((View.whole main_v2_1).slice ((win0 3).rect t)).emb y) 2).val = (y 2).val := by
    show win0_3.index t 2 * 128 + 1 * (y 2).val = (y 2).val
    rw [(idx_out t).2.2.2.2.2.1]; omega
  exact psum_congr3 (congrArg (gSq m c) e2.symm) (congrArg (65536 * ·) e0.symm) (by omega)

/-- Output array 3 ends holding the whole-chunk sums: chunk p's block is written back after its last point. -/
theorem final3 (c : Dev nD) : (dats m 0 c).arrAt 3 cfg0.N = sqArr m c :=
  (dats m 0 c).arrAt_eq_of_cover 3 (sqArr m c) (flushed3_eq m c) fun i => by
    have hi0 : (i 0 : Nat) < 2 := (i 0).isLt
    have hi1 : (i 1 : Nat) < 1 := (i 1).isLt
    have hi2 : (i 2 : Nat) < 128 := (i 2).isLt
    have hlast : (lastPt ⟨(i 0 : Nat), hi0⟩).val = 16 * (i 0 : Nat) + 15 := rfl
    refine ⟨lastPt ⟨(i 0 : Nat), hi0⟩, (flush0_3 _).mpr (by rw [hlast]; omega), ?_⟩
    show i ∈ ((View.whole main_v2_1).slice (win0_3.rect (lastPt ⟨(i 0 : Nat), hi0⟩))).set
    rw [View.set_slice_whole, Rect.mem_set_unit]
    intro a
    have hidx := idx_out (lastPt ⟨(i 0 : Nat), hi0⟩)
    rw [hlast] at hidx
    match a with
    | ⟨0, _⟩ =>
      show win0_3.index (lastPt ⟨(i 0 : Nat), hi0⟩) 0 * 1 ≤ (i 0).val ∧ (i 0).val < win0_3.index (lastPt ⟨(i 0 : Nat), hi0⟩) 0 * 1 + 1
      rw [hidx.2.2.2.1]; omega
    | ⟨1, _⟩ =>
      show win0_3.index (lastPt ⟨(i 0 : Nat), hi0⟩) 1 * 1 ≤ (i 1).val ∧ (i 1).val < win0_3.index (lastPt ⟨(i 0 : Nat), hi0⟩) 1 * 1 + 1
      rw [hidx.2.2.2.2.1]; omega
    | ⟨2, _⟩ =>
      show win0_3.index (lastPt ⟨(i 0 : Nat), hi0⟩) 2 * 128 ≤ (i 2).val ∧ (i 2).val < win0_3.index (lastPt ⟨(i 0 : Nat), hi0⟩) 2 * 128 + 128
      rw [hidx.2.2.2.2.2.1]; omega

/-- What a write-back of output 4 writes is block p = t / 16 of the whole-chunk sums: at a write-back point the run so far
    is the chunk's 65536 rows. -/
theorem flushed4_eq (c : Dev nD) (t : Fin cfg0.N) (hf : (cfg0.win 4).flush t = true) :
    (dats m 0 c).flushed 4 t = ((cfg0.win 4).blk t).view.read (Elt Ideal) (sumArr m c) := by
  have hN : t.val < 32 := lt_of_lt_of_eq t.isLt (show cfg0.N = 32 from N_0)
  have h15 : t.val % 16 = 15 := (flush0_4 t).mp hf
  show (cfg0.win 4).cut (grid0.coords t) ((dats m 0 c).after 4 t) = _
  rw [after0_4, outsAt_eq m c t.val t.isLt]
  funext y
  rw [View.read_apply]
  simp only [cast_eq]
  dsimp only [Pipeline.Window.cut]
  unfold acc4 sumArr
  dsimp only
  have hy0 : (y 0).val < 1 := (y 0).isLt
  have e0 : ((((View.whole main_v2_2).slice ((win0 4).rect t)).emb y) 0).val = t.val / 16 := by
    show win0_4.index t 0 * 1 + 1 * (y 0).val = t.val / 16
    rw [(idx_out t).2.2.2.2.2.2.1]; omega
  have e1 : ((((View.whole main_v2_2).slice ((win0 4).rect t)).emb y) 1).val = (y 1).val := by
    show win0_4.index t 1 * 128 + 1 * (y 1).val = (y 1).val
    rw [(idx_out t).2.2.2.2.2.2.2.1]; omega
  have e2 : ((((View.whole main_v2_2).slice ((win0 4).rect t)).emb y) 2).val = (y 2).val := by
    show win0_4.index t 2 * 512 + 1 * (y 2).val = (y 2).val
    rw [(idx_out t).2.2.2.2.2.2.2.2]; omega
  exact psum_congr3 (congrArg₂ (gSum m c) e1.symm (Fin.ext e2).symm) (congrArg (65536 * ·) e0.symm) (by omega)

/-- Output array 4 ends holding the whole-chunk sums: chunk p's block is written back after its last point. -/
theorem final4 (c : Dev nD) : (dats m 0 c).arrAt 4 cfg0.N = sumArr m c :=
  (dats m 0 c).arrAt_eq_of_cover 4 (sumArr m c) (flushed4_eq m c) fun i => by
    have hi0 : (i 0 : Nat) < 2 := (i 0).isLt
    have hi1 : (i 1 : Nat) < 128 := (i 1).isLt
    have hi2 : (i 2 : Nat) < 512 := (i 2).isLt
    have hlast : (lastPt ⟨(i 0 : Nat), hi0⟩).val = 16 * (i 0 : Nat) + 15 := rfl
    refine ⟨lastPt ⟨(i 0 : Nat), hi0⟩, (flush0_4 _).mpr (by rw [hlast]; omega), ?_⟩
    show i ∈ ((View.whole main_v2_2).slice (win0_4.rect (lastPt ⟨(i 0 : Nat), hi0⟩))).set
    rw [View.set_slice_whole, Rect.mem_set_unit]
    intro a
    have hidx := idx_out (lastPt ⟨(i 0 : Nat), hi0⟩)
    rw [hlast] at hidx
    match a with
    | ⟨0, _⟩ =>
      show win0_4.index (lastPt ⟨(i 0 : Nat), hi0⟩) 0 * 1 ≤ (i 0).val ∧ (i 0).val < win0_4.index (lastPt ⟨(i 0 : Nat), hi0⟩) 0 * 1 + 1
      rw [hidx.2.2.2.2.2.2.1]; omega
    | ⟨1, _⟩ =>
      show win0_4.index (lastPt ⟨(i 0 : Nat), hi0⟩) 1 * 128 ≤ (i 1).val ∧ (i 1).val < win0_4.index (lastPt ⟨(i 0 : Nat), hi0⟩) 1 * 128 + 128
      rw [hidx.2.2.2.2.2.2.2.1]; omega
    | ⟨2, _⟩ =>
      show win0_4.index (lastPt ⟨(i 0 : Nat), hi0⟩) 2 * 512 ≤ (i 2).val ∧ (i 2).val < win0_4.index (lastPt ⟨(i 0 : Nat), hi0⟩) 2 * 512 + 512
      rw [hidx.2.2.2.2.2.2.2.2]; omega

end Cert.SegVar.Grid

end
-- ==== Proof.KHost.lean ====
/-
  The kernel program's host lines around the region, read.

  Before the region: the labels are clamped into [0, 127] and reshaped to a column; the region's second operand is that
  column. After the region: each output array is cut to its first 100 classes, its two chunks added, and the loss taken of
  the three per-class arrays.
-/
import proofs.«419640_j9388798509066_3_alg».proof.Proof.Gen.KernelIdeal.Frame
import proofs.«419640_j9388798509066_3_alg».proof.Proof.Spec
import Idealize.ShloMosaic.Lib.Pipeline.Value
import Idealize.ShloMosaic.Lib.StableHlo.Run
import Idealize.ShloMosaic.Lib.ValueLayout

noncomputable section

namespace Cert.SegVar.KHost

open Idealize.ShloMosaic Idealize.ShloMosaic.ValueIdx Idealize.ShloMosaic.TcCoe Idealize.SL.Sem
open Idealize.ShloMosaic.Pipeline (Dat)
open Cert.KernelIdeal Cert.KernelIdeal.Gen Cert.SegVar

variable (m : (ℓ : Loc nD τ sig) → Buf (Elt Ideal) ℓ)

/-- The label operand as the host prefix leaves it: the labels clamped between the two constants, recast to a column. -/
theorem V_v1 (c : Dev nD) :
    (V m c main_v1 : S131072x1.Idx → BitVec 32) = shapeCast S131072x1 (minsi (broadcastInDim S131072 ![] bcast_S_S131072 (constantI S_ 32 127#32)) (maxsi (broadcastInDim S131072 ![] bcast_S_S131072 (constantI S_ 32 0#32)) (m ((c.tc : Thread nD τ).loc main_arg1) : S131072.Idx → BitVec 32))) shapeCasts_S131072_S131072x1 := by
  dsimp only [Gen.V, Gen.V0]
  simp only [Gen.hostOps0, Gen.hostOps0_1, Gen.hostOps0_2, List.flatten_cons, List.flatten_nil, List.append_nil, List.cons_append, List.nil_append]
  after_results
  rfl

/-- The region finds, as its label operand, the clamped labels as a column: entry (n, 0) is the clamp of label n. -/
theorem labels_in (c : Dev nD) (i : S131072x1.Idx) :
    (V m c main_v1 : S131072x1.Idx → BitVec 32) i = clipW (m ((c.tc : Thread nD τ).loc main_arg1) (ix1 (i 0))) := by
  rw [V_v1 m c]
  -- the column entry (n, 0) and the vector entry n sit at the same row-major position
  refine (shapeCast_apply _ shapeCasts_S131072_S131072x1 i (ix1 (i 0)) ?_).trans ?_
  · rw [Shape.rowMajor_val_one, Shape.rowMajor_val_two]
    have h1 : (i 1).val < 1 := (i 1).isLt
    show (i 0).val = (i 0).val * 1 + (i 1).val
    omega
  · -- a broadcast scalar constant reads that constant at every index
    rfl

set_option maxHeartbeats 4000000 in
/-- The lines after the region leave, in the result buffer, the loss of the three output arrays' per-class values. -/
theorem tail_read (c : Dev nD) (A2 A3 : FVec Ideal Sh2x1xP .f32) (A4 : FVec Ideal Sh2xPxD .f32)
    (h2 : (dats m 0 c).arrAt 2 cfg0.N = A2) (h3 : (dats m 0 c).arrAt 3 cfg0.N = A3) (h4 : (dats m 0 c).arrAt 4 cfg0.N = A4) :
    Pipeline.afterTail₀ cfgs (dats m) 0 (V0 m) [hostOps1, hostOps1_1, hostOps1_2, hostOps1_3] c main_v34
      = lossOf (perClass2 A2) (perClass2 A3) (perClass3 A4) := by
  -- the three output arrays, as the lines after the region find them
  have e2 : Pipeline.withArrays (cfgs 0).spec c (V0 m c) (fun w => (dats m 0 c).arrAt w (cfgs 0).N) (Proc.devRef .tc main_v2_0) = A2 :=
    (Pipeline.withArrays_arr spec0 launch0.win.arr_inj c _ _ 2).trans h2
  have e3 : Pipeline.withArrays (cfgs 0).spec c (V0 m c) (fun w => (dats m 0 c).arrAt w (cfgs 0).N) (Proc.devRef .tc main_v2_1) = A3 :=
    (Pipeline.withArrays_arr spec0 launch0.win.arr_inj c _ _ 3).trans h3
  have e4 : Pipeline.withArrays (cfgs 0).spec c (V0 m c) (fun w => (dats m 0 c).arrAt w (cfgs 0).N) (Proc.devRef .tc main_v2_2) = A4 :=
    (Pipeline.withArrays_arr spec0 launch0.win.arr_inj c _ _ 4).trans h4
  unfold Pipeline.afterTail₀
  simp only [Gen.hostOps1, Gen.hostOps1_1, Gen.hostOps1_2, Gen.hostOps1_3, List.flatten_cons, List.flatten_nil, List.append_nil, List.cons_append, List.nil_append]
  after_results_simp
  rw [e2, e3, e4]
  -- what is left is the loss's own operations over the per-class arrays' own terms
  unfold lossOf perClass2 perClass3
  rfl

end Cert.SegVar.KHost

end
-- ==== Proof.PerClass.lean ====
/-
  The host's reading of the kernel's padded per-chunk arrays, at an index: class c < 100 of the two chunks, added.
-/
import proofs.«419640_j9388798509066_3_alg».proof.Proof.Spec
import Idealize.ShloMosaic.Lib.Pipeline.Value
import Idealize.ShloMosaic.Lib.ValueLayout
import Idealize.ShloMosaic.Lib.IdealHost

noncomputable section

namespace Cert.SegVar

open Idealize.ShloMosaic Idealize.ShloMosaic.ValueIdx

/-- The padded [2, 1, 128] array cut to its first 100 classes with the unit axis dropped, read at (k, c): the slice
    starts at offset 0 on every axis, and (k, c) of [2, 100] has the row-major position of (k, 0, c) of [2, 1, 100]. -/
theorem slice2_apply (A : FVec Ideal Sh2x1xP .f32) (k : Fin 2) (c : Fin 100) :
    (shapeCast Sh2xC (extractStridedSlice Sh2x1xC ![0, 0, 0] A (by decide)) (by decide) : FVec Ideal Sh2xC .f32) (ix2 k c)
      = A (ix3 k 0 ⟨c.val, by omega⟩) := by
  refine (shapeCast_apply _ _ (ix2 k c) (ix3 k (0 : Fin 1) c)
    (by rw [Shape.rowMajor_val_two, Shape.rowMajor_val_three]
        show (k.val * 1 + 0) * 100 + c.val = k.val * 100 + c.val
        omega)).trans ?_
  exact extractStridedSlice_apply _ _ _ _ _
    (fun a => match a with
      | ⟨0, _⟩ => by show k.val = 0 + k.val; omega
      | ⟨1, _⟩ => by show (0 : Nat) = 0 + 0; omega
      | ⟨2, _⟩ => by show c.val = 0 + c.val; omega)

/-- Class c of [2, 1, 128] -> [100]: the two chunks' entries, added. -/
theorem perClass2_apply (A : FVec Ideal Sh2x1xP .f32) (c : Fin 100) :
    perClass2 A (ix1 c) = A (ix3 0 0 ⟨c.val, by omega⟩) + A (ix3 1 0 ⟨c.val, by omega⟩) := by
  have h : Shape.Reduces Sh2xC [0] ShC := by decide
  unfold perClass2
  rw [hostReduceAdd_apply, Ideal.hostReduceAdd_single _ h]
  -- the index (c) of [100] with k inserted on axis 0 is (k, c) of [2, 100]
  have e : ∀ k : Fin 2, h.lift (ix1 c) k = ix2 k c := fun k => by
    funext a
    match a with
    | ⟨0, _⟩ => exact Fin.ext rfl
    | ⟨1, _⟩ => exact Fin.ext rfl
  -- the initial value is the zero word, and axis 0 has two coordinates
  show Ideal.ofBits .f32 0x00000000#32 + ∑ k : Fin 2, _ = _
  rw [Ideal.ofBits_zero_f32, zero_add, Fin.sum_univ_two, e, e, slice2_apply, slice2_apply]

/-- The padded [2, 128, 512] array cut to its first 100 classes, read at (k, c, d): the slice starts at offset 0 on
    every axis. -/
theorem slice3_apply (A : FVec Ideal Sh2xPxD .f32) (k : Fin 2) (c : Fin 100) (d : Fin 512) :
    (extractStridedSlice Sh2xCxD ![0, 0, 0] A (by decide) : FVec Ideal Sh2xCxD .f32) (ix3 k c d)
      = A (ix3 k ⟨c.val, by omega⟩ d) :=
  extractStridedSlice_apply _ _ _ _ _
    (fun a => match a with
      | ⟨0, _⟩ => by show k.val = 0 + k.val; omega
      | ⟨1, _⟩ => by show c.val = 0 + c.val; omega
      | ⟨2, _⟩ => by show d.val = 0 + d.val; omega)

/-- Class c, column d of [2, 128, 512] -> [100, 512]: the two chunks' entries, added. -/
theorem perClass3_apply (A : FVec Ideal Sh2xPxD .f32) (c : Fin 100) (d : Fin 512) :
    perClass3 A (ix2 c d) = A (ix3 0 ⟨c.val, by omega⟩ d) + A (ix3 1 ⟨c.val, by omega⟩ d) := by
  have h : Shape.Reduces Sh2xCxD [0] ShCxD := by decide
  unfold perClass3
  rw [hostReduceAdd_apply, Ideal.hostReduceAdd_single _ h]
  -- the index (c, d) of [100, 512] with k inserted on axis 0 is (k, c, d) of [2, 100, 512]
  have e : ∀ k : Fin 2, h.lift (ix2 c d) k = ix3 k c d := fun k => by
    funext a
    match a with
    | ⟨0, _⟩ => exact Fin.ext rfl
    | ⟨1, _⟩ => exact Fin.ext rfl
    | ⟨2, _⟩ => exact Fin.ext rfl
  -- the initial value is the zero word, and axis 0 has two coordinates
  show Ideal.ofBits .f32 0x00000000#32 + ∑ k : Fin 2, _ = _
  rw [Ideal.ofBits_zero_f32, zero_add, Fin.sum_univ_two, e, e, slice3_apply, slice3_apply]

end Cert.SegVar

end
-- ==== Proof.PreDecode.lean ====
/-
  The precondition, read: every label word is a non-negative signed integer.

  The printed precondition is the conjunction of "every feature is finite" and "every label is >= 0 (signed)", each an
  and-reduction of an elementwise comparison to one bit; that it is all ones gives the second conjunct at every row.
-/
import proofs.«419640_j9388798509066_3_alg».proof.Proof.Gen.Pre_finite_inputs
import proofs.«419640_j9388798509066_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.SegVar

open Idealize.ShloMosaic Idealize.ShloMosaic.ValueIdx

/-- Where the precondition's one bit is set, every label is non-negative as a signed integer. -/
theorem labels_nonneg (X : FVec Ideal Cert.Pre_finite_inputs.S131072x512 .f32) (ℓ : IVec Cert.Pre_finite_inputs.S131072 32)
    (h : Cert.Pre_finite_inputs.fn (F := Ideal) X ℓ = fun _ => 1#1) (i : Cert.Pre_finite_inputs.S131072.Idx) :
    0 ≤ (ℓ i).toInt := by
  -- the scalar shape has one index
  haveI : Subsingleton Cert.Pre_finite_inputs.S_.Idx := ⟨fun a b => funext fun d => d.elim0⟩
  -- the one bit is the conjunction of the two and-reductions; keep the second
  have h0 := congrFun h ValueIdx.ix0
  dsimp only [Cert.Pre_finite_inputs.fn] at h0
  have h2 := (IntOp.andi_eq_one.1 h0).2
  -- an and-reduction over every row that is 1 met a 1 at row i
  have h3 := Host.reduce_andi_all _ _ _ _ ValueIdx.ix0 h2 i
  -- at row i the comparison is "0 <= label" on signed words, the scalar 0 broadcast to every row
  change IntOp.cmpi .sge (ℓ i) 0#32 = 1#1 at h3
  unfold IntOp.cmpi at h3
  have h4 : (0#32 : BitVec 32).sle (ℓ i) = true := (StableHlo.Predicate.ofBool_eq_one_iff _).1 h3
  have h5 := BitVec.sle_iff_toInt_le.1 h4
  simpa using h5

end Cert.SegVar

end
-- ==== Proof.Bridge.lean ====
/-
  The kernel's three per-class arrays are the reference's, where no label is negative.

  Per class c < 100 the kernel's host lines add the two chunks' entries, i.e. sum the row contributions over all 131072
  rows. A row contributes to class c when its CLAMPED label word min(127, max(0, l)) is the word c; the reference counts
  it when l, read signed, is c. For l >= 0 the clamp is min(127, l): if l > 127 both say no (c < 100), otherwise the
  clamp is l itself. The contribution is the one-hot (1 or 0) times the row's value, and 1 * v = v, 0 * v = 0 for every
  extended real v, so no finiteness is used.
-/
import proofs.«419640_j9388798509066_3_alg».proof.Proof.Final
import proofs.«419640_j9388798509066_3_alg».proof.Proof.KHost
import proofs.«419640_j9388798509066_3_alg».proof.Proof.PerClass
import proofs.«419640_j9388798509066_3_alg».proof.Proof.PreDecode
import Idealize.ShloMosaic.Lib.IdealHost

set_option maxRecDepth 16384

noncomputable section

namespace Cert.SegVar.Bridge

open Idealize.ShloMosaic Idealize.ShloMosaic.ValueIdx Idealize.ShloMosaic.TcCoe Idealize.SL.Sem
open Idealize.ShloMosaic.Pipeline (Dat)
open Cert.KernelIdeal Cert.KernelIdeal.Gen Cert.SegVar Cert.SegVar.Body Cert.SegVar.Grid

/-! ## The label words -/

/-- A class number below 100 is its own word, read signed. -/
theorem toInt_ofNat_small (cl : ℕ) (hc : cl < 100) : (BitVec.ofNat 32 cl).toInt = (cl : ℤ) := by
  have hn : (BitVec.ofNat 32 cl).toNat = cl := by rw [BitVec.toNat_ofNat]; exact Nat.mod_eq_of_lt (by omega)
  rw [BitVec.toInt_eq_toNat_of_lt (by rw [hn]; omega), hn]

/-- For a label that is not negative and a class below 100: the clamped label is the class word iff the label is the class. -/
theorem clip_eq_iff (l : BitVec 32) (hl : 0 ≤ l.toInt) (cl : ℕ) (hc : cl < 100) :
    clipW l = BitVec.ofNat 32 cl ↔ l.toInt = (cl : ℤ) := by
  have hcl := toInt_ofNat_small cl hc
  have h0 : (0#32 : BitVec 32).toInt = 0 := by decide
  have h127 : (127#32 : BitVec 32).toInt = 127 := by decide
  unfold clipW IntOp.minsi IntOp.maxsi
  have hm : ¬ (l.slt 0#32 = true) := by rw [BitVec.slt_iff_toInt_lt, h0]; omega
  rw [if_neg hm]
  by_cases hbig : (127#32 : BitVec 32).slt l = true
  · rw [if_pos hbig]
    have hb : (127 : ℤ) < l.toInt := by rw [BitVec.slt_iff_toInt_lt, h127] at hbig; exact hbig
    constructor
    · intro h; have := congrArg BitVec.toInt h; rw [h127, hcl] at this; omega
    · intro h; omega
  · rw [if_neg hbig]
    rw [← BitVec.toInt_inj, hcl]

/-- So the kernel's one-hot of the clamped label is the reference's test of the signed label. -/
theorem hit_clip (l : BitVec 32) (hl : 0 ≤ l.toInt) (cl : ℕ) (hc : cl < 100) :
    hitW (clipW l) cl = if l.toInt = (cl : ℤ) then 1 else 0 := by
  unfold hitW
  exact if_congr (clip_eq_iff l hl cl hc) rfl rfl

/-! ## The rows -/

variable (m : (ℓ : Loc nD τ sig) → Buf (Elt Ideal) ℓ)

/-- Row n's clamped label and its entries, from the two argument arrays. -/
theorem labN_eq (c : Dev nD) (n : Fin 131072) :
    labN m c (0 + n.val) = clipW (m ((c.tc : Thread nD τ).loc main_arg1) (ix1 n)) := by
  unfold labN
  rw [Nat.zero_add, dif_pos n.isLt]
  exact KHost.labels_in m c (ix2 ⟨n.val, n.isLt⟩ 0)

theorem featN_eq (c : Dev nD) (n : Fin 131072) (d : Fin 512) :
    featN m c (0 + n.val) d = m ((c.tc : Thread nD τ).loc main_arg0) (ix2 n d) := by
  unfold featN featIn
  rw [Nat.zero_add, dif_pos n.isLt, V_main_arg0 m c]

/-! ## The three per-class arrays -/

section arrays
variable (c : Dev nD) (hnn : ∀ i : S131072.Idx, 0 ≤ (m ((c.tc : Thread nD τ).loc main_arg1) i).toInt)
include hnn

theorem cnt_bridge : perClass2 (cntArr m c) = refCnt (m ((c.tc : Thread nD τ).loc main_arg1)) := by
  funext j
  obtain ⟨cl, rfl⟩ : ∃ cl : Fin 100, j = ix1 cl := ⟨j 0, eq_ix1 j⟩
  rw [perClass2_apply]
  show psum (gCnt m c cl.val) (65536 * 0) 65536 + psum (gCnt m c cl.val) (65536 * 1) 65536 = _
  rw [Nat.mul_zero, Nat.mul_one, psum_chunks, ← psum_fin]
  unfold refCnt
  refine Finset.sum_congr rfl fun n _ => ?_
  unfold gCnt
  rw [labN_eq m c n, hit_clip _ (hnn _) cl.val cl.isLt, Ideal.ofBits_one_f32]

theorem sq_bridge : perClass2 (sqArr m c)
    = refSq (m ((c.tc : Thread nD τ).loc main_arg0)) (m ((c.tc : Thread nD τ).loc main_arg1)) := by
  funext j
  obtain ⟨cl, rfl⟩ : ∃ cl : Fin 100, j = ix1 cl := ⟨j 0, eq_ix1 j⟩
  rw [perClass2_apply]
  show psum (gSq m c cl.val) (65536 * 0) 65536 + psum (gSq m c cl.val) (65536 * 1) 65536 = _
  rw [Nat.mul_zero, Nat.mul_one, psum_chunks, ← psum_fin]
  unfold refSq
  refine Finset.sum_congr rfl fun n _ => ?_
  unfold gSq
  rw [labN_eq m c n, hit_clip _ (hnn _) cl.val cl.isLt, Finset.sum_congr rfl fun d _ => by rw [featN_eq m c n d]]
  show (if _ then (1 : EReal) else 0) * _ = if _ then _ else 0
  split
  · rw [one_mul]
  · rw [zero_mul]

theorem sum_bridge : perClass3 (sumArr m c)
    = refSum (m ((c.tc : Thread nD τ).loc main_arg0)) (m ((c.tc : Thread nD τ).loc main_arg1)) := by
  funext j
  obtain ⟨cl, d, rfl⟩ : ∃ (cl : Fin 100) (d : Fin 512), j = ix2 cl d := ⟨j 0, j 1, eq_ix2 j⟩
  rw [perClass3_apply]
  show psum (gSum m c cl.val d) (65536 * 0) 65536 + psum (gSum m c cl.val d) (65536 * 1) 65536 = _
  rw [Nat.mul_zero, Nat.mul_one, psum_chunks, ← psum_fin]
  unfold refSum
  refine Finset.sum_congr rfl fun n _ => ?_
  unfold gSum
  rw [labN_eq m c n, hit_clip _ (hnn _) cl.val cl.isLt, featN_eq m c n d]
  show (if _ then (1 : EReal) else 0) * _ = if _ then _ else 0
  split
  · rw [one_mul]
  · rw [zero_mul]

/-- THE KERNEL'S RESULT: after the host lines that follow the region, the result buffer holds the loss of the reference's
    three segment sums of the two argument arrays. -/
theorem kernel_value :
    Pipeline.afterTail₀ cfgs (dats m) 0 (V0 m) [hostOps1, hostOps1_1, hostOps1_2, hostOps1_3] c main_v34
      = lossOf (refCnt (m ((c.tc : Thread nD τ).loc main_arg1)))
          (refSq (m ((c.tc : Thread nD τ).loc main_arg0)) (m ((c.tc : Thread nD τ).loc main_arg1)))
          (refSum (m ((c.tc : Thread nD τ).loc main_arg0)) (m ((c.tc : Thread nD τ).loc main_arg1))) := by
  rw [KHost.tail_read m c (cntArr m c) (sqArr m c) (sumArr m c) (final2 m c) (final3 m c) (final4 m c),
    cnt_bridge m c hnn, sq_bridge m c hnn, sum_bridge m c hnn]

end arrays

end Cert.SegVar.Bridge

end
-- ==== Proof.lean ====
/-
  The kernel computes the intra-class variance loss of N = 131072 feature rows of width 512 with integer labels: per class
  c < 100 the count n_c, the feature sum s_c and the sum q_c of squared norms of the rows labelled c; then the class mean
  s_c / max(n_c, 1), the sum of squared deviations q_c - n_c |mean|^2, its quotient by max(n_c - 1, 1) for the classes with
  n_c >= 2, and the average of those quotients over such classes (0 when there is none).

  The reference takes the three per-class sums by scattering one update per row onto the row's label; a row whose label is
  outside [0, 100) is dropped. The kernel clamps the label into [0, 127], then streams the rows in 2 chunks of 16 tiles of
  two 2048-row halves, accumulating per half the one-hot of the clamped label (128 padded classes) times 1, times the row's
  squared norm, and (as a contraction over rows) times the row; the host keeps the first 100 classes and adds the two chunks.
  Both programs then apply the same operations to the three per-class arrays.

  Where no label is negative the two agree on every class below 100 (a label above 127 is clamped to 127 and, like a label in
  [100, 127], lands on a padded class that is cut off; the reference drops it): the statement carries that precondition,
  beside the finiteness of the features, which the proof does not use — over the extended reals the sums are re-associated
  only, and 1 * v = v, 0 * v = 0 hold for every v. On a negative label the kernel counts the row in class 0 while the
  reference drops it.

  The frames of the two kernel programs are the generated ones; the reference's frame and its result term come from its run.
-/
import proofs.«419640_j9388798509066_3_alg».proof.Defs
import proofs.«419640_j9388798509066_3_alg».proof.Proof.Gen.Kernel
import proofs.«419640_j9388798509066_3_alg».proof.Proof.Gen.Kernel.Skeleton
import proofs.«419640_j9388798509066_3_alg».proof.Proof.Gen.Kernel.Loops
import proofs.«419640_j9388798509066_3_alg».proof.Proof.Gen.Kernel.Launch
import proofs.«419640_j9388798509066_3_alg».proof.Proof.Gen.Kernel.Points
import proofs.«419640_j9388798509066_3_alg».proof.Proof.Gen.Kernel.Frame
import proofs.«419640_j9388798509066_3_alg».proof.Proof.Gen.KernelIdeal
import proofs.«419640_j9388798509066_3_alg».proof.Proof.Gen.KernelIdeal.Skeleton
import proofs.«419640_j9388798509066_3_alg».proof.Proof.Gen.KernelIdeal.Loops
import proofs.«419640_j9388798509066_3_alg».proof.Proof.Gen.KernelIdeal.Launch
import proofs.«419640_j9388798509066_3_alg».proof.Proof.Gen.KernelIdeal.Points
import proofs.«419640_j9388798509066_3_alg».proof.Proof.Gen.KernelIdeal.Frame
import proofs.«419640_j9388798509066_3_alg».proof.Proof.Gen.ReferenceIdeal
import proofs.«419640_j9388798509066_3_alg».proof.Proof.Gen.Pre_finite_inputs
import proofs.«419640_j9388798509066_3_alg».proof.Proof.RefRun
import proofs.«419640_j9388798509066_3_alg».proof.Proof.RefSide
import proofs.«419640_j9388798509066_3_alg».proof.Proof.Bridge
import Idealize.ShloMosaic.Adequacy
import Idealize.ShloMosaic.Init

noncomputable section

namespace Cert.Proof

open Idealize.ShloMosaic Idealize.ShloMosaic.TcCoe Idealize.SL.Sem Cert.SegVar

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of the reference's three segment sums of the shared arguments: the kernel by its
    frame run, whose result buffer the host lines after the region fill from the three output arrays; the reference by
    its run. -/
theorem algebraic : Cert.algebraic_KernelIdeal_ReferenceIdeal := by
  intro m ρ m' ρ' hpre hagree
  have hnn : ∀ (c : Dev Cert.KernelIdeal.nD) (i : Cert.KernelIdeal.S131072.Idx),
      0 ≤ (m ((c.tc : Thread Cert.KernelIdeal.nD Cert.KernelIdeal.τ).loc Cert.KernelIdeal.main_arg1) i).toInt :=
    fun c i => Cert.SegVar.labels_nonneg _ _ (hpre c) i
  refine ⟨fun c => lossOf (refCnt (m ((c.tc : Thread Cert.KernelIdeal.nD Cert.KernelIdeal.τ).loc Cert.KernelIdeal.main_arg1)))
      (refSq (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (refSum (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    ?_, ?_⟩
  · refine (θ_run Cert.KernelIdeal.defs _ _).mono (fun r h c => ⟨?_, ?_, ?_⟩) (Cert.KernelIdeal.Gen.run_main (F := Ideal) m ρ)
    · exact ((h c).2 Cert.KernelIdeal.main_v34 (Pipeline.mem_restRefs_of Cert.KernelIdeal.main_v34 (by decide) (by decide))).trans
        (Cert.SegVar.Bridge.kernel_value m c (hnn c))
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, (h c).2.1, (h c).2.2⟩)
      (Cert.ReferenceIdeal.Value.run (F := Ideal) m' ρ')
    refine (h c).1.trans ((Cert.SegVar.Ref.result_eq m' c).trans ?_)
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
